-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg6 : FVec F S512x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S10000x256 .f32) (main_arg1 : FVec F S10000x10000 .f32) (main_arg2 : IVec S320000 32) (main_arg3 : IVec S320000 32) (main_arg4 : FVec F S256x512 .f32) (main_arg5 : FVec F S512 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S1x512 : Shape := ⟨2, ![1, 512]⟩
abbrev S1x256 : Shape := ⟨2, ![1, 256]⟩
abbrev S2000x256 : Shape := ⟨2, ![2000, 256]⟩
abbrev S2000x512 : Shape := ⟨2, ![2000, 512]⟩
abbrev S80x10000 : Shape := ⟨2, ![80, 10000]⟩
abbrev S80x256 : Shape := ⟨2, ![80, 256]⟩
abbrev S_ : Shape := ⟨0, ![]⟩
abbrev S320000x1 : Shape := ⟨2, ![320000, 1]⟩
abbrev S320000x256 : Shape := ⟨2, ![320000, 256]⟩

abbrev nBuf : Space → Nat
  | .hbm => 32
  | .vmem => 19
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1x512, .f32⟩
  | .hbm, ⟨13, _⟩ => ⟨S1x256, .f32⟩
  | .hbm, ⟨14, _⟩ => ⟨S10000x256, .bf16⟩
  | .hbm, ⟨15, _⟩ => ⟨S1x256, .f32⟩
  | .hbm, ⟨16, _⟩ => ⟨S1x256, .f32⟩
  | .hbm, ⟨17, _⟩ => ⟨S10000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S_, .f32⟩
  | .hbm, ⟨28, _⟩ => ⟨S10000x256, .f32⟩
  | .hbm, ⟨29, _⟩ => ⟨S320000x1, .i32⟩
  | .hbm, ⟨30, _⟩ => ⟨S10000x256, .f32⟩
  | .hbm, ⟨31, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S2000x256, .bf16⟩
  | .local _ .vmem, ⟨7, _⟩ => ⟨S2000x256, .bf16⟩
  | .local _ .vmem, ⟨8, _⟩ => ⟨S80x10000, .f32⟩
  | .local _ .vmem, ⟨9, _⟩ => ⟨S80x10000, .f32⟩
  | .local _ .vmem, ⟨10, _⟩ => ⟨S10000x256, .bf16⟩
  | .local _ .vmem, ⟨11, _⟩ => ⟨S80x256, .bf16⟩
  | .local _ .vmem, ⟨12, _⟩ => ⟨S80x256, .bf16⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S80x256, .f32⟩
  | .local _ .vmem, ⟨18, _⟩ => ⟨S80x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S80x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S512_S1x512 : S512.ShapeCasts S1x512
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  inb_S80x10000_S80x10000_0_0 : ∀ a, (![0, 0] : Fin 2 → Nat) a + S80x10000.size a ≤ S80x10000.size a
  h_S80x10000 : 0 < S80x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  broadcasts_S1x256_S80x256 : S1x256.Broadcasts S80x256
  inb_S80x256_S80x256_0_0 : ∀ a, (![0, 0] : Fin 2 → Nat) a + S80x256.size a ≤ S80x256.size a
  h_S80x256 : 0 < S80x256.numel
  shapeCasts_S80x256_S80x256 : S80x256.ShapeCasts S80x256
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S80x10000_S10000x256_S80x256_1_0_0_1_n_n_wf : DotDims.WF S80x10000 S10000x256 S80x256 [1] [0] [0] [1] [] []
  dot_S80x256_S256x256_S80x256_1_0_0_1_n_n_wf : DotDims.WF S80x256 S256x256 S80x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .bf16 = 32 ∨ (Rect.block (s := S10000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x256.size a ≤ S10000x256.size a
  hwx1_2 : ∀ i : grid1.Coords, EltTy.bits .bf16 = 32 ∨ (Rect.block (s := S10000x256) S80x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S80x256.size a ≤ S10000x256.size a
  hwx1_7 : ∀ i : grid1.Coords, EltTy.bits .f32 = 32 ∨ (Rect.block (s := S10000x256) S80x256.size (cc1_transform_7 i) (hinb1_7 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S80x10000_S10000x256_S80x256_1_0_0_1_n_n : DotDims S80x10000 S10000x256 S80x256 where
  lhsContracting := [1]
  rhsContracting := [0]
  lhsNonContracting := [0]
  rhsNonContracting := [1]
  lhsBatch := []
  rhsBatch := []
  wf := dot_S80x10000_S10000x256_S80x256_1_0_0_1_n_n_wf
def dot_S80x256_S256x256_S80x256_1_0_0_1_n_n : DotDims S80x256 S256x256 S80x256 where
  lhsContracting := [1]
  rhsContracting := [0]
  lhsNonContracting := [0]
  rhsNonContracting := [1]
  lhsBatch := []
  rhsBatch := []
  wf := dot_S80x256_S256x256_S80x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S80x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S80x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S320000 : Shape := ⟨1, ![320000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S10000x512 : Shape := ⟨2, ![10000, 512]⟩
abbrev S1x512 : Shape := ⟨2, ![1, 512]⟩
abbrev S_ : Shape := ⟨0, ![]⟩
abbrev S1x256 : Shape := ⟨2, ![1, 256]⟩
abbrev S320000x1 : Shape := ⟨2, ![320000, 1]⟩
abbrev S320000x256 : Shape := ⟨2, ![320000, 256]⟩

abbrev nBuf : Space → Nat
  | .hbm => 57
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S10000x512, .f32⟩
  | .hbm, ⟨13, _⟩ => ⟨S1x512, .f32⟩
  | .hbm, ⟨14, _⟩ => ⟨S10000x512, .f32⟩
  | .hbm, ⟨15, _⟩ => ⟨S10000x512, .f32⟩
  | .hbm, ⟨16, _⟩ => ⟨S_, .f32⟩
  | .hbm, ⟨17, _⟩ => ⟨S10000x512, .f32⟩
  | .hbm, ⟨18, _⟩ => ⟨S10000x512, .f32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S_, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S_, .f32⟩
  | .hbm, ⟨53, _⟩ => ⟨S10000x256, .f32⟩
  | .hbm, ⟨54, _⟩ => ⟨S320000x1, .i32⟩
  | .hbm, ⟨55, _⟩ => ⟨S10000x256, .f32⟩
  | .hbm, ⟨56, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  dot_S10000x256_S256x512_S10000x512_1_0_0_1_n_n_wf : DotDims.WF S10000x256 S256x512 S10000x512 [1] [0] [0] [1] [] []
  dot_S10000x512_S512x256_S10000x256_1_0_0_1_n_n_wf : DotDims.WF S10000x512 S512x256 S10000x256 [1] [0] [0] [1] [] []
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.Bits.Data0.lean ====
/-
  Region 0 (the residual block, a grid of 5 row tiles of 2000 rows): what the pipeline hands the body and what the
  body leaves, as data. Window w's block at point t is read off the array the region finds; the five inputs
  (the activations' row tile, both weight matrices whole, both bias rows whole) are left as found, and the output
  tile is the one store's value over the whole 2000 x 256 rectangle.
-/
import proofs.«149684_j6356551598646_1_alg».proof.Proof.Gen.Kernel.Launch
import proofs.«149684_j6356551598646_1_alg».proof.Proof.Gen.Kernel.Skeleton
import proofs.«149684_j6356551598646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S2000x256 := Rect.unit (s := S2000x256) ![0, 0] S2000x256.size inb_S2000x256_S2000x256_0_0
abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0

/-- The output tile after the body: its one store, of the residual block's value on the loaded tiles. -/
def out0_5 (x0 : Vec F S2000x256 .f32) (x1 : Vec F S256x512 .f32) (x2 : Vec F S1x512 .f32) (x3 : Vec F S512x256 .f32) (x4 : Vec F S1x256 .f32) :
    Vec F S2000x256 .bf16 :=
  View.canon [⟨rX0, k0_pay1 (View.ld x0 rX0) (View.ld x1 rW1) (View.ld x2 rB1) (View.ld x3 rW2) (View.ld x4 rB2)⟩]

/-- The proof data of region 0 on core `c`: arrays as found; each input's buffer left at its block, the output's at
    `out0_5` of the input blocks; the invariant is the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

end Cert.Kernel.Hand

end
-- ==== Proof.Bits.Body0.lean ====
/-
  Region 0's body at every grid point: handed the five input tiles at their blocks and the output tile at anything, the
  residual kernel loads them whole, stores the block's value over the whole output tile, and returns; the inputs are left
  as they were.
-/
import proofs.«149684_j6356551598646_1_alg».proof.Proof.Bits.Data0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (V : (c : Dev nD) → (b : Ref sig .tc) → Buf (Elt F) ((c : Thread nD τ).loc b))

namespace Body0

/-! ## What the body finds in each input tile

  An input window is never written by the body, so its buffer holds the window's block at the point whether the
  pipeline moved it in at this point or at an earlier one with the same block index: the activations' row tile is
  moved in at every point, the weights and biases once, at the first. -/

/-- The activations' row tile: fetched at every point. -/
theorem finds0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The first weight matrix, whole: fetched once, its block index constant. -/
theorem finds0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The first bias row, whole: fetched once. -/
theorem finds0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The second weight matrix, whole: fetched once. -/
theorem finds0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The second bias row, whole: fetched once. -/
theorem finds0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The output tile's one store covers it -/

/-- The store's rectangle is the whole 2000 x 256 tile: every index of the tile lies under it. -/
theorem whole0_5 (p : Vec F S2000x256 .bf16) (y : S2000x256.Idx) :
    ∃ pc ∈ ([⟨rX0, p⟩] : List (View.Piece (Elt F) S2000x256 .bf16)), y ∈ pc.1.set :=
  View.cover_of_tiled [⟨rX0, p⟩] S2000x256.size (by rfl) y

/-! ## The kernel function's triple -/

set_option maxHeartbeats 1000000 in
/-- On whole memrefs, the five inputs read as `x0 … x4` and the output tile at any contents, the residual kernel — at
    any grid coordinates, which it does not use — runs to a continuation that is handed the inputs back unchanged and the
    output tile at the stored block value `out0_5 x0 … x4`. The printed function is its skeleton of six loads and one
    store; the load of the output tile before the store reads whatever was there and its value is dropped. -/
theorem residual_run (c : Dev nD) (E : Set ℕ) (i : grid0.Coords)
    (a1 : Memref sig .tc .vmem S2000x256 .f32) (h1 : a1.IsWhole) (a2 : Memref sig .tc .vmem S256x512 .f32) (h2 : a2.IsWhole)
    (a3 : Memref sig .tc .vmem S1x512 .f32) (h3 : a3.IsWhole) (a4 : Memref sig .tc .vmem S512x256 .f32) (h4 : a4.IsWhole)
    (a5 : Memref sig .tc .vmem S1x256 .f32) (h5 : a5.IsWhole) (a6 : Memref sig .tc .vmem S2000x256 .bf16) (h6 : a6.IsWhole)
    (x0 : Vec F S2000x256 .f32) (x1 : Vec F S256x512 .f32) (x2 : Vec F S1x512 .f32) (x3 : Vec F S512x256 .f32)
    (x4 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__residual_kernel i a1 h1 a2 h2 a3 h3 a4 h4 a5 h5 a6 h6) K := by
  simp only [cc0__residual_kernel_eq_skeleton]; unfold cc0__residual_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole0_5 _)

/-! ## The obligation at a grid point -/

/-- What the pipeline hands the body at point `t`: the invariant, what the core owes, and each window's current
    staging buffer at what it then holds. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the invariant and the debt at the next point, each buffer at what the proof data says the
    body leaves. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. Each input buffer holds its block (`finds0_w`), so the kernel's triple applies at the five
    blocks; the invariant and the debt do not depend on the point and pass through untouched. -/
theorem body_at0 (c : Dev nD) (t : Fin cfg0.N) :
    given0 V c t ⊢ wp frame (wpE (defs₀ (F := F)) Variants.none c none) Set.univ (bodyAt0 t) (fun _ => left0 V c t) := by
  unfold given0 left0 bodyAt0
  simp only [finds0_0, finds0_1, finds0_2, finds0_3, finds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (residual_run c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Body0

/-- The library's body obligation for region 0, at every point. -/
theorem body_obligation0 (c : Dev nD) : BodyObligation (dat0 (F := F) V c) (defs₀ (F := F)) Variants.none () Set.univ := fun t => by
  rw [bigSep_W0, bigSep_W0]
  exact Body0.body_at0 V c t

end Cert.Kernel.Hand

end
-- ==== Proof.Bits.Data1.lean ====
/-
  Region 1 (the lattice block, a grid of 125 row tiles of 80 rows): what the pipeline hands the body and what the
  body leaves, as data. The intermediate activations reach the body through two windows of one array (whole, as the
  right factor of the adjacency product; and the point's 80-row tile, as the left factor of the first linear map), so
  that array's ownership is dealt in two halves, one per window. The seven inputs are left as found; the output tile is
  the one store's value over the whole 80 x 256 rectangle.
-/
import proofs.«149684_j6356551598646_1_alg».proof.Proof.Gen.Kernel.Launch
import proofs.«149684_j6356551598646_1_alg».proof.Proof.Gen.Kernel.Skeleton
import proofs.«149684_j6356551598646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA1 : Rect S80x10000 := Rect.unit (s := S80x10000) ![0, 0] S80x10000.size inb_S80x10000_S80x10000_0_0
abbrev rVc : Rect S10000x256 := Rect.unit (s := S10000x256) ![0, 0] S10000x256.size inb_S10000x256_S10000x256_0_0
abbrev rVr : Rect S80x256 := Rect.unit (s := S80x256) ![0, 0] S80x256.size inb_S80x256_S80x256_0_0
abbrev rWl : Rect S256x256 := Rect.unit (s := S256x256) ![0, 0] S256x256.size inb_S256x256_S256x256_0_0
abbrev rBl : Rect S1x256 := Rect.unit (s := S1x256) ![0, 0] S1x256.size inb_S1x256_S1x256_0_0

/-- The output tile after the body: its one store, of the lattice block's value on the loaded tiles (the windows in
    operand order: adjacency rows, activations whole, activations' rows, first weight, first bias row, second weight,
    second bias row). -/
def out1_7 (x0 : Vec F S80x10000 .f32) (x1 : Vec F S10000x256 .bf16) (x2 : Vec F S80x256 .bf16) (x3 : Vec F S256x256 .f32) (x4 : Vec F S1x256 .f32)
    (x5 : Vec F S256x256 .f32) (x6 : Vec F S1x256 .f32) : Vec F S80x256 .f32 :=
  View.canon [⟨rVr, k1_pay1 (View.ld x0 rA1) (View.ld x1 rVc) (View.ld x5 rWl) (View.ld x6 rBl) (View.ld x2 rVr) (View.ld x3 rWl) (View.ld x4 rBl)⟩]

/-- How the input arrays' ownership is dealt among the windows: the two windows on the intermediate activations hold a
    half each, every other window its array whole. -/
def q1 : Fin cfg1.W → PosShare TreeShare
  | ⟨1, _⟩ => fullShare.left
  | ⟨2, _⟩ => fullShare.right
  | _ => fullShare

/-- The proof data of region 1 on core `c`: arrays as found; each input's buffer left at its block, the output's at
    `out1_7` of the input blocks; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.Bits.Body1.lean ====
/-
  Region 1's body at every grid point: handed the seven input tiles at their blocks and the output tile at anything, the
  lattice kernel loads them whole, stores the block's value over the whole output tile, and returns; the inputs are left
  as they were.
-/
import proofs.«149684_j6356551598646_1_alg».proof.Proof.Bits.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## What the body finds in its input buffers

An input window is uncut and never idle, and the body leaves each input buffer as it found it (`after1_w` is the block).
So at every point the current buffer holds the window's block there, whether or not the pipeline fetched at that point:
where it did not, the block index has not moved since the last fetch and the buffer still holds that same block. -/

/-- The adjacency rows' buffer (window 0, a new 80-row tile at every point) holds the point's tile when the body runs. -/
theorem found1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [after1_0]; unfold Dat.blockOf iblk1; rw [A_eq1]; try rfl
  · unfold Dat.fetched Dat.blockOf iblk1; rw [A_eq1]; try rfl

/-- The buffer of the activations taken whole (window 1) holds the whole array at every point: it is fetched at the first point only, its block index never moves, and the body leaves it as found. -/
theorem found1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [after1_1]; unfold Dat.blockOf iblk1; rw [A_eq1]; try rfl
  · unfold Dat.fetched Dat.blockOf iblk1; rw [A_eq1]; try rfl

/-- The activations' row tile (window 2, a new tile at every point) is in its buffer when the body runs. -/
theorem found1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [after1_2]; unfold Dat.blockOf iblk1; rw [A_eq1]; try rfl
  · unfold Dat.fetched Dat.blockOf iblk1; rw [A_eq1]; try rfl

/-- The first weight matrix (window 3, constant block index) is in its buffer at every point. -/
theorem found1_3 (c : Dev nD) (t : Fin cfg1.N) (d) : (dat1 V c).before 3 t d = iblk1 V c 3 t := by
  refine ((dat1 V c).before_in_eq_fetched 3 rfl (fun _ => rfl) (fun _ _ _ => rfl) (fun s => ?_) t d).trans ?_
  · rw [after1_3]; unfold Dat.blockOf iblk1; rw [A_eq1]; try rfl
  · unfold Dat.fetched Dat.blockOf iblk1; rw [A_eq1]; try rfl

/-- The first bias row (window 4, constant block index) is in its buffer at every point. -/
theorem found1_4 (c : Dev nD) (t : Fin cfg1.N) (d) : (dat1 V c).before 4 t d = iblk1 V c 4 t := by
  refine ((dat1 V c).before_in_eq_fetched 4 rfl (fun _ => rfl) (fun _ _ _ => rfl) (fun s => ?_) t d).trans ?_
  · rw [after1_4]; unfold Dat.blockOf iblk1; rw [A_eq1]; try rfl
  · unfold Dat.fetched Dat.blockOf iblk1; rw [A_eq1]; try rfl

/-- The second weight matrix (window 5, constant block index) is in its buffer at every point. -/
theorem found1_5 (c : Dev nD) (t : Fin cfg1.N) (d) : (dat1 V c).before 5 t d = iblk1 V c 5 t := by
  refine ((dat1 V c).before_in_eq_fetched 5 rfl (fun _ => rfl) (fun _ _ _ => rfl) (fun s => ?_) t d).trans ?_
  · rw [after1_5]; unfold Dat.blockOf iblk1; rw [A_eq1]; try rfl
  · unfold Dat.fetched Dat.blockOf iblk1; rw [A_eq1]; try rfl

/-- The second bias row (window 6, constant block index) is in its buffer at every point. -/
theorem found1_6 (c : Dev nD) (t : Fin cfg1.N) (d) : (dat1 V c).before 6 t d = iblk1 V c 6 t := by
  refine ((dat1 V c).before_in_eq_fetched 6 rfl (fun _ => rfl) (fun _ _ _ => rfl) (fun s => ?_) t d).trans ?_
  · rw [after1_6]; unfold Dat.blockOf iblk1; rw [A_eq1]; try rfl
  · unfold Dat.fetched Dat.blockOf iblk1; rw [A_eq1]; try rfl

/-! ## The kernel on whole buffers -/

/-- One rectangle, the whole 80 x 256 tile: every index of the tile lies in it. -/
theorem whole_tile_covered (p : Vec F S80x256 .f32) (y : S80x256.Idx) :
    ∃ pc ∈ ([⟨rVr, p⟩] : List (View.Piece (Elt F) S80x256 .f32)), y ∈ pc.1.set :=
  View.cover_of_tiled [⟨rVr, p⟩] S80x256.size (by rfl) y

set_option maxHeartbeats 2000000 in
/-- The lattice kernel on eight whole staging memrefs: the seven inputs read `x0 … x6`, the output holds anything. It
    loads each input whole, loads the output tile (the value is dropped), stores the block's value over the whole output
    tile and returns. So the inputs are handed on unchanged and the output reads `out1_7 x0 … x6`: one write that covers
    the tile leaves exactly its payload, whatever was there before. The grid point `i` is not read. -/
theorem lattice_kernel_triple (c : Dev nD) (E : Set ℕ) (i : grid1.Coords)
    (a0 : Memref sig .tc .vmem S80x10000 .f32) (w0 : a0.IsWhole) (a1 : Memref sig .tc .vmem S10000x256 .bf16) (w1 : a1.IsWhole)
    (a2 : Memref sig .tc .vmem S80x256 .bf16) (w2 : a2.IsWhole) (a3 : Memref sig .tc .vmem S256x256 .f32) (w3 : a3.IsWhole)
    (a4 : Memref sig .tc .vmem S1x256 .f32) (w4 : a4.IsWhole) (a5 : Memref sig .tc .vmem S256x256 .f32) (w5 : a5.IsWhole)
    (a6 : Memref sig .tc .vmem S1x256 .f32) (w6 : a6.IsWhole) (a7 : Memref sig .tc .vmem S80x256 .f32) (w7 : a7.IsWhole)
    (x0 : Vec F S80x10000 .f32) (x1 : Vec F S10000x256 .bf16) (x2 : Vec F S80x256 .bf16) (x3 : Vec F S256x256 .f32)
    (x4 : Vec F S1x256 .f32) (x5 : Vec F S256x256 .f32) (x6 : Vec F S1x256 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (out1_7 x0 x1 x2 x3 x4 x5 x6)) -∗ K ⟨⟩))
      ⊢ wp frame (wpE (defs₀ (F := F)) Variants.none c none) E (cc1__lattice_kernel i a0 w0 a1 w1 a2 w2 a3 w3 a4 w4 a5 w5 a6 w6 a7 w7) K := by
  simp only [cc1__lattice_kernel_eq_skeleton]; unfold cc1__lattice_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (whole_tile_covered _)

/-! ## The body at a grid point -/

/-- What the pipeline hands the body at point `t`: the region's invariant, what the core owes, and each window's current
    staging buffer at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body hands back: the same invariant and debt at the next point, each buffer at the data's `after`. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. Each input buffer holds its window's block there (`found1_w`), so the kernel's triple applies
    at the seven blocks; the invariant and the debt do not depend on the point and pass through untouched. -/
theorem body_at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4, found1_5, found1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lattice_kernel_triple c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for region 1, at every point. -/
theorem body_obligation1 (c : Dev nD) : BodyObligation (dat1 (F := F) V c) (defs₀ (F := F)) Variants.none () Set.univ := fun t => by
  rw [bigSep_W1, bigSep_W1]
  exact body_at_point1 V c t

end Cert.Kernel.Hand

end
-- ==== Proof.Bits.Shared1.lean ====
/-
  Region 1's arrays against the buffers behind them. Seven distinct buffers stand behind its eight windows: the
  intermediate activations are behind two input windows. Whole ownership of each buffer is the windows' ownership of
  their arrays once the shared buffer's is cut in its two halves, and back again when both halves hold the same contents.
-/
import proofs.«149684_j6356551598646_1_alg».proof.Proof.Bits.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The distinct buffers behind region 1's eight windows, listed. -/
theorem arrImage1 : Finset.univ.image (Pipeline.arrRef spec1) = [main_arg1, main_v2, main_arg8, main_v3, main_arg10, main_v4, main_v5].toFinset := by
  decide

/-- The buffers behind region 1's arrays, one by one. -/
theorem arrBufs1_eq {c : Dev nD} (W : (b : Ref sig .tc) → Buf (Elt F) ((c : Thread nD τ).loc b)) :
    (Pipeline.arrBufs spec1 c W : sProp 𝕄) = iprop(
      (((c : Thread nD τ).loc main_arg1) ↦{fullShare} W main_arg1) ∗
      (((c : Thread nD τ).loc main_v2) ↦{fullShare} W main_v2) ∗
      (((c : Thread nD τ).loc main_arg8) ↦{fullShare} W main_arg8) ∗
      (((c : Thread nD τ).loc main_v3) ↦{fullShare} W main_v3) ∗
      (((c : Thread nD τ).loc main_arg10) ↦{fullShare} W main_arg10) ∗
      (((c : Thread nD τ).loc main_v4) ↦{fullShare} W main_v4) ∗
      (((c : Thread nD τ).loc main_v5) ↦{fullShare} W main_v5)) := by
  unfold Pipeline.arrBufs
  exact bigSep_eq_bigSepL_of_eq [main_arg1, main_v2, main_arg8, main_v3, main_arg10, main_v4, main_v5] arrImage1 (by decide) _

/-- One window's array, a whole buffer, held at the share `r` the proof data deal it. -/
theorem arr1_at {c : Dev nD} (dat : Dat τ (Elt F) Unit ℕ (UR sig nD τ) ℕ cfg1 c) (w : Fin cfg1.W) (r : PosShare TreeShare) (hr : dat.share w = r)
    (g : Buf (Elt F) ((cfg1.win w).arr.view.loc (c : Thread nD τ))) :
    ((cfg1.win w).arr.view.loc (c : Thread nD τ) ↦[(cfg1.win w).arr.view.set]{dat.share w} g : sProp 𝕄)
      = ((cfg1.win w).arr.view.loc (c : Thread nD τ) ↦{r} g) := by
  rw [(arr_whole1 w).set_eq_univ, hr]

/-- The shares region 1's windows hold their arrays at. -/
theorem share1_0 {c : Dev nD} (dat : Dat τ (Elt F) Unit ℕ (UR sig nD τ) ℕ cfg1 c) (hq : dat.q = q1) : dat.share 0 = fullShare := by
  unfold Dat.share; rw [hq]; rfl
theorem share1_1 {c : Dev nD} (dat : Dat τ (Elt F) Unit ℕ (UR sig nD τ) ℕ cfg1 c) (hq : dat.q = q1) : dat.share 1 = fullShare.left := by
  unfold Dat.share; rw [hq]; rfl
theorem share1_2 {c : Dev nD} (dat : Dat τ (Elt F) Unit ℕ (UR sig nD τ) ℕ cfg1 c) (hq : dat.q = q1) : dat.share 2 = fullShare.right := by
  unfold Dat.share; rw [hq]; rfl
theorem share1_3 {c : Dev nD} (dat : Dat τ (Elt F) Unit ℕ (UR sig nD τ) ℕ cfg1 c) (hq : dat.q = q1) : dat.share 3 = fullShare := by
  unfold Dat.share; rw [hq]; rfl
theorem share1_4 {c : Dev nD} (dat : Dat τ (Elt F) Unit ℕ (UR sig nD τ) ℕ cfg1 c) (hq : dat.q = q1) : dat.share 4 = fullShare := by
  unfold Dat.share; rw [hq]; rfl
theorem share1_5 {c : Dev nD} (dat : Dat τ (Elt F) Unit ℕ (UR sig nD τ) ℕ cfg1 c) (hq : dat.q = q1) : dat.share 5 = fullShare := by
  unfold Dat.share; rw [hq]; rfl
theorem share1_6 {c : Dev nD} (dat : Dat τ (Elt F) Unit ℕ (UR sig nD τ) ℕ cfg1 c) (hq : dat.q = q1) : dat.share 6 = fullShare := by
  unfold Dat.share; rw [hq]; rfl
theorem share1_7 {c : Dev nD} (dat : Dat τ (Elt F) Unit ℕ (UR sig nD τ) ℕ cfg1 c) (hq : dat.q = q1) : dat.share 7 = fullShare := by
  unfold Dat.share; rfl

/-- Region 1's arrays window by window, each a whole buffer at its share: halves for the two windows on the
    intermediate activations, whole for the rest. -/
theorem arrays1_eq {c : Dev nD} (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = iprop(
      ((cfg1.win 0).arr.view.loc (c : Thread nD τ) ↦{fullShare} G 0) ∗
      ((cfg1.win 1).arr.view.loc (c : Thread nD τ) ↦{fullShare.left} G 1) ∗
      ((cfg1.win 2).arr.view.loc (c : Thread nD τ) ↦{fullShare.right} G 2) ∗
      ((cfg1.win 3).arr.view.loc (c : Thread nD τ) ↦{fullShare} G 3) ∗
      ((cfg1.win 4).arr.view.loc (c : Thread nD τ) ↦{fullShare} G 4) ∗
      ((cfg1.win 5).arr.view.loc (c : Thread nD τ) ↦{fullShare} G 5) ∗
      ((cfg1.win 6).arr.view.loc (c : Thread nD τ) ↦{fullShare} G 6) ∗
      ((cfg1.win 7).arr.view.loc (c : Thread nD τ) ↦{fullShare} G 7)) := by
  unfold Dat.arrays
  rw [bigSep_W1, arr1_at dat 0 _ (share1_0 dat hq), arr1_at dat 1 _ (share1_1 dat hq), arr1_at dat 2 _ (share1_2 dat hq),
    arr1_at dat 3 _ (share1_3 dat hq), arr1_at dat 4 _ (share1_4 dat hq), arr1_at dat 5 _ (share1_5 dat hq),
    arr1_at dat 6 _ (share1_6 dat hq), arr1_at dat 7 _ (share1_7 dat hq)]

/-- ENTRY: the distinct buffers behind region 1's arrays, each whole at contents `W`, are the windows' arrays at the
    same contents, the shared buffer's ownership split between its two windows. -/
theorem arrays1_of_bufs {c : Dev nD} (dat : Dat τ (Elt F) Unit ℕ (UR sig nD τ) ℕ cfg1 c) (hq : dat.q = q1)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs spec1 c W : sProp 𝕄) ⊢ dat.arrays G := by
  rw [arrBufs1_eq, arrays1_eq dat hq, hG 0, hG 1, hG 2, hG 3, hG 4, hG 5, hG 6, hG 7]
  iintro ⟨H0, H12, H3, H4, H5, H6, H7⟩
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- EXIT: the windows' arrays, each at what `W` holds behind it, are the distinct buffers whole at `W`, the two halves
    of the shared buffer rejoined. -/
theorem bufs_of_arrays1 {c : Dev nD} (dat : Dat τ (Elt F) Unit ℕ (UR sig nD τ) ℕ cfg1 c) (hq : dat.q = q1)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    dat.arrays G ⊢ (Pipeline.arrBufs spec1 c W : sProp 𝕄) := by
  rw [arrBufs1_eq, arrays1_eq dat hq, hG 0, hG 1, hG 2, hG 3, hG 4, hG 5, hG 6, hG 7]
  iintro ⟨H0, H1, H2, H3, H4, H5, H6, H7⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  isplitl [H6]; · iexact H6
  iexact H7

end Cert.Kernel.Hand

end
-- ==== Proof.Bits.Run.lean ====
/-
  The run of the whole program: its five items in order (two bias reshapes, the residual region, two bias reshapes, the
  lattice region, the edge aggregation), from any launch memory, at any float instance. Between items the core holds
  every unscoped buffer at known contents: the launch memory, then each host stretch applied, then what a region's
  write-backs leave in its result array. The residual region leaves the intermediate activations, the lattice region its
  result; nothing else changes. At the end every unscoped buffer is read back at the last contents.
-/
import proofs.«149684_j6356551598646_1_alg».proof.Proof.Bits.Body0
import proofs.«149684_j6356551598646_1_alg».proof.Proof.Bits.Body1
import proofs.«149684_j6356551598646_1_alg».proof.Proof.Bits.Shared1
import proofs.«149684_j6356551598646_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Pipeline (Seg HostSeg RegionSeg)

local notation "𝕄" => MT nD τ sig Unit (Elt F) ℕ (UR sig nD τ) ℕ

variable (m : (ℓ : Loc nD τ sig) → Buf (Elt F) ℓ)

/-! ## What each region finds and leaves -/

/-- The buffers as region 0 finds them (after the first two reshapes), read at the core's own references. -/
abbrev E1 (c : Dev nD) (b : Ref sig .tc) : Buf (Elt F) ((c : Thread nD τ).loc b) := Gen.V1 m c b
/-- What region 0 leaves in the intermediate activations: its five write-backs folded. -/
def o2 (c : Dev nD) : Buf (Elt F) ((c : Thread nD τ).loc main_v2) := (dat0 (E1 m) c).arrAt 5 cfg0.N
/-- The buffers after region 0, and after the next two reshapes (as region 1 finds them). -/
abbrev X2 (c : Dev nD) : Valuation τ sig (Elt F) := Function.update (Gen.V1 m c) main_v2 (o2 m c)
abbrev X3 (c : Dev nD) : Valuation τ sig (Elt F) := StableHlo.after hostOps1 (X2 m c)
abbrev E3 (c : Dev nD) (b : Ref sig .tc) : Buf (Elt F) ((c : Thread nD τ).loc b) := X3 m c b
/-- What region 1 leaves in its result array: its 125 write-backs folded. -/
def o5 (c : Dev nD) : Buf (Elt F) ((c : Thread nD τ).loc main_v5) := (dat1 (E3 m) c).arrAt 7 cfg1.N

/-- The regions' results as the family of unknowns the buffer contents between items are written over. -/
def outs : Gen.Outs (F := F) := fun _ r c =>
  if h : r = main_v2 then h ▸ o2 m c else if h' : r = main_v5 then h' ▸ o5 m c else Gen.V0 m c r

theorem outs_v2 (c : Dev nD) : outs m 2 main_v2 c = o2 m c := by
  unfold outs; rw [dif_pos rfl]
theorem outs_v5 (c : Dev nD) : outs m 4 main_v5 c = o5 m c := by
  unfold outs; rw [dif_neg (by decide), dif_pos rfl]

theorem V2_eq (c : Dev nD) : Gen.V2 m (outs m) c = X2 m c :=
  congrArg (fun v => (Function.update (Gen.V1 m c) main_v2 v : Valuation τ sig (Elt F))) (outs_v2 m c)
theorem V3_eq (c : Dev nD) : Gen.V3 m (outs m) c = X3 m c :=
  congrArg (fun W => (StableHlo.after hostOps1 W : Valuation τ sig (Elt F))) (V2_eq m c)

/-! ## The proof data of both regions, and what rides beside the buffers -/

/-- Both regions' proof data, each at the contents its region finds. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the inputs as found, the output its write-backs. -/
theorem hF0 (c : Dev nD) (w : Fin cfg0.W) : (pdats m 0 c).arrAt w cfg0.N = Gen.V2 m (outs m) c (Pipeline.arrRef spec0 w) :=
  match w with
  | ⟨0, _⟩ => ((pdats m 0 c).arrAt_in 0 rfl _).trans ((A_eq0 (E1 m) c 0).trans (Gen.V2_of m (outs m) c main_arg0 (by decide)).symm)
  | ⟨1, _⟩ => ((pdats m 0 c).arrAt_in 1 rfl _).trans ((A_eq0 (E1 m) c 1).trans (Gen.V2_of m (outs m) c main_arg4 (by decide)).symm)
  | ⟨2, _⟩ => ((pdats m 0 c).arrAt_in 2 rfl _).trans ((A_eq0 (E1 m) c 2).trans (Gen.V2_of m (outs m) c main_v0 (by decide)).symm)
  | ⟨3, _⟩ => ((pdats m 0 c).arrAt_in 3 rfl _).trans ((A_eq0 (E1 m) c 3).trans (Gen.V2_of m (outs m) c main_arg6 (by decide)).symm)
  | ⟨4, _⟩ => ((pdats m 0 c).arrAt_in 4 rfl _).trans ((A_eq0 (E1 m) c 4).trans (Gen.V2_of m (outs m) c main_v1 (by decide)).symm)
  | ⟨5, _⟩ => by
    show o2 m c = Function.update (Gen.V1 m c) main_v2 (outs m 2 main_v2 c) main_v2
    rw [Function.update_self, outs_v2]

/-- Off region 0's arrays nothing changes. -/
theorem hrest0 (c : Dev nD) (b : Ref sig .tc) (hb : b ∉ Finset.univ.image (Pipeline.arrRef spec0)) :
    Gen.V2 m (outs m) c b = E1 m c b :=
  Gen.V2_of m (outs m) c b (by
    intro h; rw [List.mem_singleton] at h; subst h
    exact hb (Finset.mem_image.mpr ⟨5, Finset.mem_univ _, rfl⟩))

set_option backward.isDefEq.respectTransparency.types false in
/-- REGION 0 as a segment: entered with every unscoped buffer at the contents after the first reshapes, left with the
    intermediate activations at what the write-backs leave and everything else as entered. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves: the inputs as found, the output its write-backs. -/
theorem hF1 (c : Dev nD) (w : Fin cfg1.W) : (pdats m 1 c).arrAt w cfg1.N = Gen.V4 m (outs m) c (Pipeline.arrRef spec1 w) :=
  match w with
  | ⟨0, _⟩ => ((pdats m 1 c).arrAt_in 0 rfl _).trans ((A_eq1 (E3 m) c 0).trans
      ((Gen.V4_of m (outs m) c main_arg1 (by decide)).trans (congrFun (V3_eq m c) _)).symm)
  | ⟨1, _⟩ => ((pdats m 1 c).arrAt_in 1 rfl _).trans ((A_eq1 (E3 m) c 1).trans
      ((Gen.V4_of m (outs m) c main_v2 (by decide)).trans (congrFun (V3_eq m c) _)).symm)
  | ⟨2, _⟩ => ((pdats m 1 c).arrAt_in 2 rfl _).trans ((A_eq1 (E3 m) c 2).trans
      ((Gen.V4_of m (outs m) c main_v2 (by decide)).trans (congrFun (V3_eq m c) _)).symm)
  | ⟨3, _⟩ => ((pdats m 1 c).arrAt_in 3 rfl _).trans ((A_eq1 (E3 m) c 3).trans
      ((Gen.V4_of m (outs m) c main_arg8 (by decide)).trans (congrFun (V3_eq m c) _)).symm)
  | ⟨4, _⟩ => ((pdats m 1 c).arrAt_in 4 rfl _).trans ((A_eq1 (E3 m) c 4).trans
      ((Gen.V4_of m (outs m) c main_v3 (by decide)).trans (congrFun (V3_eq m c) _)).symm)
  | ⟨5, _⟩ => ((pdats m 1 c).arrAt_in 5 rfl _).trans ((A_eq1 (E3 m) c 5).trans
      ((Gen.V4_of m (outs m) c main_arg10 (by decide)).trans (congrFun (V3_eq m c) _)).symm)
  | ⟨6, _⟩ => ((pdats m 1 c).arrAt_in 6 rfl _).trans ((A_eq1 (E3 m) c 6).trans
      ((Gen.V4_of m (outs m) c main_v4 (by decide)).trans (congrFun (V3_eq m c) _)).symm)
  | ⟨7, _⟩ => by
    show o5 m c = Function.update (Gen.V3 m (outs m) c) main_v5 (outs m 4 main_v5 c) main_v5
    rw [Function.update_self, outs_v5]

/-- Off region 1's arrays nothing changes. -/
theorem hrest1 (c : Dev nD) (b : Ref sig .tc) (hb : b ∉ Finset.univ.image (Pipeline.arrRef spec1)) :
    Gen.V4 m (outs m) c b = E3 m c b :=
  (Gen.V4_of m (outs m) c b (by
    intro h; rw [List.mem_singleton] at h; subst h
    exact hb (Finset.mem_image.mpr ⟨7, Finset.mem_univ _, rfl⟩))).trans (congrFun (V3_eq m c) _)

set_option backward.isDefEq.respectTransparency.types false in
/-- REGION 1 as a segment: entered with every unscoped buffer at the contents after the second reshapes, left with its
    result array at what the write-backs leave and everything else as entered. The buffer behind its two windows on the
    intermediate activations is cut in two halves on the way in and rejoined on the way out. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit : (unscopedBufs c (E3 m c) : sProp 𝕄)
        ⊢ iprop((pdats m 1 c).arrays ((pdats m 1 c).arrAt · 0) ∗ Pipeline.unscopedRest spec1 c (E3 m c)) := by
      rw [Pipeline.unscopedBufs_split₀ cfgs 1 winFacts₀1.arr_unscoped c (E3 m c)]
      exact sep_mono (arrays1_of_bufs (pdats m 1 c) (q_eq1 (E3 m) c) (E3 m c) _ fun w => A_eq1 (E3 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (fun b => Gen.V4 m (outs m) c b) : sProp 𝕄) := by
      rw [Pipeline.unscopedBufs_split₀ cfgs 1 winFacts₀1.arr_unscoped c (fun b => Gen.V4 m (outs m) c b)]
      refine sep_mono (bufs_of_arrays1 (pdats m 1 c) (q_eq1 (E3 m) c) (fun b => Gen.V4 m (outs m) c b) _ (hF1 m c)) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped reference of the core is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and the final memory holds every unscoped buffer of each core at the last contents: the launch memory with each host
    stretch applied and each region's result in its place. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl,
      (show iprop(StableHlo.held (c : Thread nD τ) (Pipeline.ucRefs τ sig) (Gen.V5 m (outs m) c) ∗ R c)
          ⊢ (iprop((StableHlo.held (c : Thread nD τ) (Pipeline.ucRefs τ sig) (Gen.V5 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun _ h => h)

/-- THE FRAME. Every argument array ends holding its launch contents: no host stretch writes one and no region's
    write-backs touch one, so the last contents at an argument are the launch memory's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c),
     (h c _ (mem_uc main_arg8 (by decide))).trans (Gen.V5_main_arg8 m (outs m) c),
     (h c _ (mem_uc main_arg9 (by decide))).trans (Gen.V5_main_arg9 m (outs m) c),
     (h c _ (mem_uc main_arg10 (by decide))).trans (Gen.V5_main_arg10 m (outs m) c),
     (h c _ (mem_uc main_arg11 (by decide))).trans (Gen.V5_main_arg11 m (outs m) c)⟩)
    (run_main m ρ)

end Cert.Kernel.Hand

end
-- ==== Proof.Ideal.Data0.lean ====
/-
  Region 0 (the residual block, a grid of 5 row tiles of 2000 rows): what the pipeline hands the body and what the
  body leaves, as data. Window w's block at point t is read off the array the region finds; the five inputs
  (the activations' row tile, both weight matrices whole, both bias rows whole) are left as found, and the output
  tile is the one store's value over the whole 2000 x 256 rectangle.
-/
import proofs.«149684_j6356551598646_1_alg».proof.Proof.Gen.KernelIdeal.Launch
import proofs.«149684_j6356551598646_1_alg».proof.Proof.Gen.KernelIdeal.Skeleton
import proofs.«149684_j6356551598646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX0 : Rect S2000x256 := Rect.unit (s := S2000x256) ![0, 0] S2000x256.size inb_S2000x256_S2000x256_0_0
abbrev rW1 : Rect S256x512 := Rect.unit (s := S256x512) ![0, 0] S256x512.size inb_S256x512_S256x512_0_0
abbrev rB1 : Rect S1x512 := Rect.unit (s := S1x512) ![0, 0] S1x512.size inb_S1x512_S1x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0

/-- The output tile after the body: its one store, of the residual block's value on the loaded tiles. -/
def out0_5 (x0 : Vec F S2000x256 .f32) (x1 : Vec F S256x512 .f32) (x2 : Vec F S1x512 .f32) (x3 : Vec F S512x256 .f32) (x4 : Vec F S1x256 .f32) :
    Vec F S2000x256 .bf16 :=
  View.canon [⟨rX0, k0_pay1 (View.ld x0 rX0) (View.ld x1 rW1) (View.ld x2 rB1) (View.ld x3 rW2) (View.ld x4 rB2)⟩]

/-- The proof data of region 0 on core `c`: arrays as found; each input's buffer left at its block, the output's at
    `out0_5` of the input blocks; the invariant is the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

end Cert.KernelIdeal.Hand

end
-- ==== Proof.Ideal.Body0.lean ====
/-
  Region 0's body at every grid point: handed the five input tiles at their blocks and the output tile at anything, the
  residual kernel loads them whole, stores the block's value over the whole output tile, and returns; the inputs are left
  as they were.
-/
import proofs.«149684_j6356551598646_1_alg».proof.Proof.Ideal.Data0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (V : (c : Dev nD) → (b : Ref sig .tc) → Buf (Elt F) ((c : Thread nD τ).loc b))

namespace Body0

/-! ## What the body finds in each input tile

  An input window is never written by the body, so its buffer holds the window's block at the point whether the
  pipeline moved it in at this point or at an earlier one with the same block index: the activations' row tile is
  moved in at every point, the weights and biases once, at the first. -/

/-- The activations' row tile: fetched at every point. -/
theorem finds0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The first weight matrix, whole: fetched once, its block index constant. -/
theorem finds0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The first bias row, whole: fetched once. -/
theorem finds0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The second weight matrix, whole: fetched once. -/
theorem finds0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The second bias row, whole: fetched once. -/
theorem finds0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The output tile's one store covers it -/

/-- The store's rectangle is the whole 2000 x 256 tile: every index of the tile lies under it. -/
theorem whole0_5 (p : Vec F S2000x256 .bf16) (y : S2000x256.Idx) :
    ∃ pc ∈ ([⟨rX0, p⟩] : List (View.Piece (Elt F) S2000x256 .bf16)), y ∈ pc.1.set :=
  View.cover_of_tiled [⟨rX0, p⟩] S2000x256.size (by rfl) y

/-! ## The kernel function's triple -/

set_option maxHeartbeats 1000000 in
/-- On whole memrefs, the five inputs read as `x0 … x4` and the output tile at any contents, the residual kernel — at
    any grid coordinates, which it does not use — runs to a continuation that is handed the inputs back unchanged and the
    output tile at the stored block value `out0_5 x0 … x4`. The printed function is its skeleton of six loads and one
    store; the load of the output tile before the store reads whatever was there and its value is dropped. -/
theorem residual_run (c : Dev nD) (E : Set ℕ) (i : grid0.Coords)
    (a1 : Memref sig .tc .vmem S2000x256 .f32) (h1 : a1.IsWhole) (a2 : Memref sig .tc .vmem S256x512 .f32) (h2 : a2.IsWhole)
    (a3 : Memref sig .tc .vmem S1x512 .f32) (h3 : a3.IsWhole) (a4 : Memref sig .tc .vmem S512x256 .f32) (h4 : a4.IsWhole)
    (a5 : Memref sig .tc .vmem S1x256 .f32) (h5 : a5.IsWhole) (a6 : Memref sig .tc .vmem S2000x256 .bf16) (h6 : a6.IsWhole)
    (x0 : Vec F S2000x256 .f32) (x1 : Vec F S256x512 .f32) (x2 : Vec F S1x512 .f32) (x3 : Vec F S512x256 .f32)
    (x4 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__residual_kernel i a1 h1 a2 h2 a3 h3 a4 h4 a5 h5 a6 h6) K := by
  simp only [cc0__residual_kernel_eq_skeleton]; unfold cc0__residual_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (whole0_5 _)

/-! ## The obligation at a grid point -/

/-- What the pipeline hands the body at point `t`: the invariant, what the core owes, and each window's current
    staging buffer at what it then holds. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the invariant and the debt at the next point, each buffer at what the proof data says the
    body leaves. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. Each input buffer holds its block (`finds0_w`), so the kernel's triple applies at the five
    blocks; the invariant and the debt do not depend on the point and pass through untouched. -/
theorem body_at0 (c : Dev nD) (t : Fin cfg0.N) :
    given0 V c t ⊢ wp frame (wpE (defs₀ (F := F)) Variants.none c none) Set.univ (bodyAt0 t) (fun _ => left0 V c t) := by
  unfold given0 left0 bodyAt0
  simp only [finds0_0, finds0_1, finds0_2, finds0_3, finds0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (residual_run c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Body0

/-- The library's body obligation for region 0, at every point. -/
theorem body_obligation0 (c : Dev nD) : BodyObligation (dat0 (F := F) V c) (defs₀ (F := F)) Variants.none () Set.univ := fun t => by
  rw [bigSep_W0, bigSep_W0]
  exact Body0.body_at0 V c t

end Cert.KernelIdeal.Hand

end
-- ==== Proof.Ideal.Data1.lean ====
/-
  Region 1 (the lattice block, a grid of 125 row tiles of 80 rows): what the pipeline hands the body and what the
  body leaves, as data. The intermediate activations reach the body through two windows of one array (whole, as the
  right factor of the adjacency product; and the point's 80-row tile, as the left factor of the first linear map), so
  that array's ownership is dealt in two halves, one per window. The seven inputs are left as found; the output tile is
  the one store's value over the whole 80 x 256 rectangle.
-/
import proofs.«149684_j6356551598646_1_alg».proof.Proof.Gen.KernelIdeal.Launch
import proofs.«149684_j6356551598646_1_alg».proof.Proof.Gen.KernelIdeal.Skeleton
import proofs.«149684_j6356551598646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rA1 : Rect S80x10000 := Rect.unit (s := S80x10000) ![0, 0] S80x10000.size inb_S80x10000_S80x10000_0_0
abbrev rVc : Rect S10000x256 := Rect.unit (s := S10000x256) ![0, 0] S10000x256.size inb_S10000x256_S10000x256_0_0
abbrev rVr : Rect S80x256 := Rect.unit (s := S80x256) ![0, 0] S80x256.size inb_S80x256_S80x256_0_0
abbrev rWl : Rect S256x256 := Rect.unit (s := S256x256) ![0, 0] S256x256.size inb_S256x256_S256x256_0_0
abbrev rBl : Rect S1x256 := Rect.unit (s := S1x256) ![0, 0] S1x256.size inb_S1x256_S1x256_0_0

/-- The output tile after the body: its one store, of the lattice block's value on the loaded tiles (the windows in
    operand order: adjacency rows, activations whole, activations' rows, first weight, first bias row, second weight,
    second bias row). -/
def out1_7 (x0 : Vec F S80x10000 .f32) (x1 : Vec F S10000x256 .bf16) (x2 : Vec F S80x256 .bf16) (x3 : Vec F S256x256 .f32) (x4 : Vec F S1x256 .f32)
    (x5 : Vec F S256x256 .f32) (x6 : Vec F S1x256 .f32) : Vec F S80x256 .f32 :=
  View.canon [⟨rVr, k1_pay1 (View.ld x0 rA1) (View.ld x1 rVc) (View.ld x5 rWl) (View.ld x6 rBl) (View.ld x2 rVr) (View.ld x3 rWl) (View.ld x4 rBl)⟩]

/-- How the input arrays' ownership is dealt among the windows: the two windows on the intermediate activations hold a
    half each, every other window its array whole. -/
def q1 : Fin cfg1.W → PosShare TreeShare
  | ⟨1, _⟩ => fullShare.left
  | ⟨2, _⟩ => fullShare.right
  | _ => fullShare

/-- The proof data of region 1 on core `c`: arrays as found; each input's buffer left at its block, the output's at
    `out1_7` of the input blocks; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by
  dsimp only [dat1]
theorem q_eq1 (c : Dev nD) : (dat1 V c).q = q1 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.Ideal.Body1.lean ====
/-
  Region 1's body at every grid point: handed the seven input tiles at their blocks and the output tile at anything, the
  lattice kernel loads them whole, stores the block's value over the whole output tile, and returns; the inputs are left
  as they were.
-/
import proofs.«149684_j6356551598646_1_alg».proof.Proof.Ideal.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## What the body finds in its input buffers

An input window is uncut and never idle, and the body leaves each input buffer as it found it (`after1_w` is the block).
So at every point the current buffer holds the window's block there, whether or not the pipeline fetched at that point:
where it did not, the block index has not moved since the last fetch and the buffer still holds that same block. -/

/-- The adjacency rows' buffer (window 0, a new 80-row tile at every point) holds the point's tile when the body runs. -/
theorem found1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [after1_0]; unfold Dat.blockOf iblk1; rw [A_eq1]; try rfl
  · unfold Dat.fetched Dat.blockOf iblk1; rw [A_eq1]; try rfl

/-- The buffer of the activations taken whole (window 1) holds the whole array at every point: it is fetched at the first point only, its block index never moves, and the body leaves it as found. -/
theorem found1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [after1_1]; unfold Dat.blockOf iblk1; rw [A_eq1]; try rfl
  · unfold Dat.fetched Dat.blockOf iblk1; rw [A_eq1]; try rfl

/-- The activations' row tile (window 2, a new tile at every point) is in its buffer when the body runs. -/
theorem found1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [after1_2]; unfold Dat.blockOf iblk1; rw [A_eq1]; try rfl
  · unfold Dat.fetched Dat.blockOf iblk1; rw [A_eq1]; try rfl

/-- The first weight matrix (window 3, constant block index) is in its buffer at every point. -/
theorem found1_3 (c : Dev nD) (t : Fin cfg1.N) (d) : (dat1 V c).before 3 t d = iblk1 V c 3 t := by
  refine ((dat1 V c).before_in_eq_fetched 3 rfl (fun _ => rfl) (fun _ _ _ => rfl) (fun s => ?_) t d).trans ?_
  · rw [after1_3]; unfold Dat.blockOf iblk1; rw [A_eq1]; try rfl
  · unfold Dat.fetched Dat.blockOf iblk1; rw [A_eq1]; try rfl

/-- The first bias row (window 4, constant block index) is in its buffer at every point. -/
theorem found1_4 (c : Dev nD) (t : Fin cfg1.N) (d) : (dat1 V c).before 4 t d = iblk1 V c 4 t := by
  refine ((dat1 V c).before_in_eq_fetched 4 rfl (fun _ => rfl) (fun _ _ _ => rfl) (fun s => ?_) t d).trans ?_
  · rw [after1_4]; unfold Dat.blockOf iblk1; rw [A_eq1]; try rfl
  · unfold Dat.fetched Dat.blockOf iblk1; rw [A_eq1]; try rfl

/-- The second weight matrix (window 5, constant block index) is in its buffer at every point. -/
theorem found1_5 (c : Dev nD) (t : Fin cfg1.N) (d) : (dat1 V c).before 5 t d = iblk1 V c 5 t := by
  refine ((dat1 V c).before_in_eq_fetched 5 rfl (fun _ => rfl) (fun _ _ _ => rfl) (fun s => ?_) t d).trans ?_
  · rw [after1_5]; unfold Dat.blockOf iblk1; rw [A_eq1]; try rfl
  · unfold Dat.fetched Dat.blockOf iblk1; rw [A_eq1]; try rfl

/-- The second bias row (window 6, constant block index) is in its buffer at every point. -/
theorem found1_6 (c : Dev nD) (t : Fin cfg1.N) (d) : (dat1 V c).before 6 t d = iblk1 V c 6 t := by
  refine ((dat1 V c).before_in_eq_fetched 6 rfl (fun _ => rfl) (fun _ _ _ => rfl) (fun s => ?_) t d).trans ?_
  · rw [after1_6]; unfold Dat.blockOf iblk1; rw [A_eq1]; try rfl
  · unfold Dat.fetched Dat.blockOf iblk1; rw [A_eq1]; try rfl

/-! ## The kernel on whole buffers -/

/-- One rectangle, the whole 80 x 256 tile: every index of the tile lies in it. -/
theorem whole_tile_covered (p : Vec F S80x256 .f32) (y : S80x256.Idx) :
    ∃ pc ∈ ([⟨rVr, p⟩] : List (View.Piece (Elt F) S80x256 .f32)), y ∈ pc.1.set :=
  View.cover_of_tiled [⟨rVr, p⟩] S80x256.size (by rfl) y

set_option maxHeartbeats 2000000 in
/-- The lattice kernel on eight whole staging memrefs: the seven inputs read `x0 … x6`, the output holds anything. It
    loads each input whole, loads the output tile (the value is dropped), stores the block's value over the whole output
    tile and returns. So the inputs are handed on unchanged and the output reads `out1_7 x0 … x6`: one write that covers
    the tile leaves exactly its payload, whatever was there before. The grid point `i` is not read. -/
theorem lattice_kernel_triple (c : Dev nD) (E : Set ℕ) (i : grid1.Coords)
    (a0 : Memref sig .tc .vmem S80x10000 .f32) (w0 : a0.IsWhole) (a1 : Memref sig .tc .vmem S10000x256 .bf16) (w1 : a1.IsWhole)
    (a2 : Memref sig .tc .vmem S80x256 .bf16) (w2 : a2.IsWhole) (a3 : Memref sig .tc .vmem S256x256 .f32) (w3 : a3.IsWhole)
    (a4 : Memref sig .tc .vmem S1x256 .f32) (w4 : a4.IsWhole) (a5 : Memref sig .tc .vmem S256x256 .f32) (w5 : a5.IsWhole)
    (a6 : Memref sig .tc .vmem S1x256 .f32) (w6 : a6.IsWhole) (a7 : Memref sig .tc .vmem S80x256 .f32) (w7 : a7.IsWhole)
    (x0 : Vec F S80x10000 .f32) (x1 : Vec F S10000x256 .bf16) (x2 : Vec F S80x256 .bf16) (x3 : Vec F S256x256 .f32)
    (x4 : Vec F S1x256 .f32) (x5 : Vec F S256x256 .f32) (x6 : Vec F S1x256 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (out1_7 x0 x1 x2 x3 x4 x5 x6)) -∗ K ⟨⟩))
      ⊢ wp frame (wpE (defs₀ (F := F)) Variants.none c none) E (cc1__lattice_kernel i a0 w0 a1 w1 a2 w2 a3 w3 a4 w4 a5 w5 a6 w6 a7 w7) K := by
  simp only [cc1__lattice_kernel_eq_skeleton]; unfold cc1__lattice_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (whole_tile_covered _)

/-! ## The body at a grid point -/

/-- What the pipeline hands the body at point `t`: the region's invariant, what the core owes, and each window's current
    staging buffer at what it then holds. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body hands back: the same invariant and debt at the next point, each buffer at the data's `after`. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. Each input buffer holds its window's block there (`found1_w`), so the kernel's triple applies
    at the seven blocks; the invariant and the debt do not depend on the point and pass through untouched. -/
theorem body_at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3, found1_4, found1_5, found1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (lattice_kernel_triple c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for region 1, at every point. -/
theorem body_obligation1 (c : Dev nD) : BodyObligation (dat1 (F := F) V c) (defs₀ (F := F)) Variants.none () Set.univ := fun t => by
  rw [bigSep_W1, bigSep_W1]
  exact body_at_point1 V c t

end Cert.KernelIdeal.Hand

end
-- ==== Proof.Ideal.Shared1.lean ====
/-
  Region 1's arrays against the buffers behind them. Seven distinct buffers stand behind its eight windows: the
  intermediate activations are behind two input windows. Whole ownership of each buffer is the windows' ownership of
  their arrays once the shared buffer's is cut in its two halves, and back again when both halves hold the same contents.
-/
import proofs.«149684_j6356551598646_1_alg».proof.Proof.Ideal.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The distinct buffers behind region 1's eight windows, listed. -/
theorem arrImage1 : Finset.univ.image (Pipeline.arrRef spec1) = [main_arg1, main_v2, main_arg8, main_v3, main_arg10, main_v4, main_v5].toFinset := by
  decide

/-- The buffers behind region 1's arrays, one by one. -/
theorem arrBufs1_eq {c : Dev nD} (W : (b : Ref sig .tc) → Buf (Elt F) ((c : Thread nD τ).loc b)) :
    (Pipeline.arrBufs spec1 c W : sProp 𝕄) = iprop(
      (((c : Thread nD τ).loc main_arg1) ↦{fullShare} W main_arg1) ∗
      (((c : Thread nD τ).loc main_v2) ↦{fullShare} W main_v2) ∗
      (((c : Thread nD τ).loc main_arg8) ↦{fullShare} W main_arg8) ∗
      (((c : Thread nD τ).loc main_v3) ↦{fullShare} W main_v3) ∗
      (((c : Thread nD τ).loc main_arg10) ↦{fullShare} W main_arg10) ∗
      (((c : Thread nD τ).loc main_v4) ↦{fullShare} W main_v4) ∗
      (((c : Thread nD τ).loc main_v5) ↦{fullShare} W main_v5)) := by
  unfold Pipeline.arrBufs
  exact bigSep_eq_bigSepL_of_eq [main_arg1, main_v2, main_arg8, main_v3, main_arg10, main_v4, main_v5] arrImage1 (by decide) _

/-- One window's array, a whole buffer, held at the share `r` the proof data deal it. -/
theorem arr1_at {c : Dev nD} (dat : Dat τ (Elt F) Unit ℕ (UR sig nD τ) ℕ cfg1 c) (w : Fin cfg1.W) (r : PosShare TreeShare) (hr : dat.share w = r)
    (g : Buf (Elt F) ((cfg1.win w).arr.view.loc (c : Thread nD τ))) :
    ((cfg1.win w).arr.view.loc (c : Thread nD τ) ↦[(cfg1.win w).arr.view.set]{dat.share w} g : sProp 𝕄)
      = ((cfg1.win w).arr.view.loc (c : Thread nD τ) ↦{r} g) := by
  rw [(arr_whole1 w).set_eq_univ, hr]

/-- The shares region 1's windows hold their arrays at. -/
theorem share1_0 {c : Dev nD} (dat : Dat τ (Elt F) Unit ℕ (UR sig nD τ) ℕ cfg1 c) (hq : dat.q = q1) : dat.share 0 = fullShare := by
  unfold Dat.share; rw [hq]; rfl
theorem share1_1 {c : Dev nD} (dat : Dat τ (Elt F) Unit ℕ (UR sig nD τ) ℕ cfg1 c) (hq : dat.q = q1) : dat.share 1 = fullShare.left := by
  unfold Dat.share; rw [hq]; rfl
theorem share1_2 {c : Dev nD} (dat : Dat τ (Elt F) Unit ℕ (UR sig nD τ) ℕ cfg1 c) (hq : dat.q = q1) : dat.share 2 = fullShare.right := by
  unfold Dat.share; rw [hq]; rfl
theorem share1_3 {c : Dev nD} (dat : Dat τ (Elt F) Unit ℕ (UR sig nD τ) ℕ cfg1 c) (hq : dat.q = q1) : dat.share 3 = fullShare := by
  unfold Dat.share; rw [hq]; rfl
theorem share1_4 {c : Dev nD} (dat : Dat τ (Elt F) Unit ℕ (UR sig nD τ) ℕ cfg1 c) (hq : dat.q = q1) : dat.share 4 = fullShare := by
  unfold Dat.share; rw [hq]; rfl
theorem share1_5 {c : Dev nD} (dat : Dat τ (Elt F) Unit ℕ (UR sig nD τ) ℕ cfg1 c) (hq : dat.q = q1) : dat.share 5 = fullShare := by
  unfold Dat.share; rw [hq]; rfl
theorem share1_6 {c : Dev nD} (dat : Dat τ (Elt F) Unit ℕ (UR sig nD τ) ℕ cfg1 c) (hq : dat.q = q1) : dat.share 6 = fullShare := by
  unfold Dat.share; rw [hq]; rfl
theorem share1_7 {c : Dev nD} (dat : Dat τ (Elt F) Unit ℕ (UR sig nD τ) ℕ cfg1 c) (hq : dat.q = q1) : dat.share 7 = fullShare := by
  unfold Dat.share; rfl

/-- Region 1's arrays window by window, each a whole buffer at its share: halves for the two windows on the
    intermediate activations, whole for the rest. -/
theorem arrays1_eq {c : Dev nD} (dat : Dat τ (Elt F) Unit ℕ (UR sig nD τ) ℕ cfg1 c) (hq : dat.q = q1)
    (G : (w : Fin cfg1.W) → Buf (Elt F) ((cfg1.win w).arr.view.loc (c : Thread nD τ))) :
    (dat.arrays G : sProp 𝕄) = iprop(
      ((cfg1.win 0).arr.view.loc (c : Thread nD τ) ↦{fullShare} G 0) ∗
      ((cfg1.win 1).arr.view.loc (c : Thread nD τ) ↦{fullShare.left} G 1) ∗
      ((cfg1.win 2).arr.view.loc (c : Thread nD τ) ↦{fullShare.right} G 2) ∗
      ((cfg1.win 3).arr.view.loc (c : Thread nD τ) ↦{fullShare} G 3) ∗
      ((cfg1.win 4).arr.view.loc (c : Thread nD τ) ↦{fullShare} G 4) ∗
      ((cfg1.win 5).arr.view.loc (c : Thread nD τ) ↦{fullShare} G 5) ∗
      ((cfg1.win 6).arr.view.loc (c : Thread nD τ) ↦{fullShare} G 6) ∗
      ((cfg1.win 7).arr.view.loc (c : Thread nD τ) ↦{fullShare} G 7)) := by
  unfold Dat.arrays
  rw [bigSep_W1, arr1_at dat 0 _ (share1_0 dat hq), arr1_at dat 1 _ (share1_1 dat hq), arr1_at dat 2 _ (share1_2 dat hq),
    arr1_at dat 3 _ (share1_3 dat hq), arr1_at dat 4 _ (share1_4 dat hq), arr1_at dat 5 _ (share1_5 dat hq),
    arr1_at dat 6 _ (share1_6 dat hq), arr1_at dat 7 _ (share1_7 dat hq)]

/-- ENTRY: the distinct buffers behind region 1's arrays, each whole at contents `W`, are the windows' arrays at the
    same contents, the shared buffer's ownership split between its two windows. -/
theorem arrays1_of_bufs {c : Dev nD} (dat : Dat τ (Elt F) Unit ℕ (UR sig nD τ) ℕ cfg1 c) (hq : dat.q = q1)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs spec1 c W : sProp 𝕄) ⊢ dat.arrays G := by
  rw [arrBufs1_eq, arrays1_eq dat hq, hG 0, hG 1, hG 2, hG 3, hG 4, hG 5, hG 6, hG 7]
  iintro ⟨H0, H12, H3, H4, H5, H6, H7⟩
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- EXIT: the windows' arrays, each at what `W` holds behind it, are the distinct buffers whole at `W`, the two halves
    of the shared buffer rejoined. -/
theorem bufs_of_arrays1 {c : Dev nD} (dat : Dat τ (Elt F) Unit ℕ (UR sig nD τ) ℕ cfg1 c) (hq : dat.q = q1)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    dat.arrays G ⊢ (Pipeline.arrBufs spec1 c W : sProp 𝕄) := by
  rw [arrBufs1_eq, arrays1_eq dat hq, hG 0, hG 1, hG 2, hG 3, hG 4, hG 5, hG 6, hG 7]
  iintro ⟨H0, H1, H2, H3, H4, H5, H6, H7⟩
  ihave H12 := (pointsTo_share (PosShare.mem_left_op_right fullShare)).2 $$ [H1 H2]
  · isplitl [H1]; · iexact H1
    iexact H2
  isplitl [H0]; · iexact H0
  isplitl [H12]; · iexact H12
  isplitl [H3]; · iexact H3
  isplitl [H4]; · iexact H4
  isplitl [H5]; · iexact H5
  isplitl [H6]; · iexact H6
  iexact H7

end Cert.KernelIdeal.Hand

end
-- ==== Proof.Ideal.Run.lean ====
/-
  The run of the whole program: its five items in order (two bias reshapes, the residual region, two bias reshapes, the
  lattice region, the edge aggregation), from any launch memory, at any float instance. Between items the core holds
  every unscoped buffer at known contents: the launch memory, then each host stretch applied, then what a region's
  write-backs leave in its result array. The residual region leaves the intermediate activations, the lattice region its
  result; nothing else changes. At the end every unscoped buffer is read back at the last contents.
-/
import proofs.«149684_j6356551598646_1_alg».proof.Proof.Ideal.Body0
import proofs.«149684_j6356551598646_1_alg».proof.Proof.Ideal.Body1
import proofs.«149684_j6356551598646_1_alg».proof.Proof.Ideal.Shared1
import proofs.«149684_j6356551598646_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.Pipeline (Seg HostSeg RegionSeg)

local notation "𝕄" => MT nD τ sig Unit (Elt F) ℕ (UR sig nD τ) ℕ

variable (m : (ℓ : Loc nD τ sig) → Buf (Elt F) ℓ)

/-! ## What each region finds and leaves -/

/-- The buffers as region 0 finds them (after the first two reshapes), read at the core's own references. -/
abbrev E1 (c : Dev nD) (b : Ref sig .tc) : Buf (Elt F) ((c : Thread nD τ).loc b) := Gen.V1 m c b
/-- What region 0 leaves in the intermediate activations: its five write-backs folded. -/
def o2 (c : Dev nD) : Buf (Elt F) ((c : Thread nD τ).loc main_v2) := (dat0 (E1 m) c).arrAt 5 cfg0.N
/-- The buffers after region 0, and after the next two reshapes (as region 1 finds them). -/
abbrev X2 (c : Dev nD) : Valuation τ sig (Elt F) := Function.update (Gen.V1 m c) main_v2 (o2 m c)
abbrev X3 (c : Dev nD) : Valuation τ sig (Elt F) := StableHlo.after hostOps1 (X2 m c)
abbrev E3 (c : Dev nD) (b : Ref sig .tc) : Buf (Elt F) ((c : Thread nD τ).loc b) := X3 m c b
/-- What region 1 leaves in its result array: its 125 write-backs folded. -/
def o5 (c : Dev nD) : Buf (Elt F) ((c : Thread nD τ).loc main_v5) := (dat1 (E3 m) c).arrAt 7 cfg1.N

/-- The regions' results as the family of unknowns the buffer contents between items are written over. -/
def outs : Gen.Outs (F := F) := fun _ r c =>
  if h : r = main_v2 then h ▸ o2 m c else if h' : r = main_v5 then h' ▸ o5 m c else Gen.V0 m c r

theorem outs_v2 (c : Dev nD) : outs m 2 main_v2 c = o2 m c := by
  unfold outs; rw [dif_pos rfl]
theorem outs_v5 (c : Dev nD) : outs m 4 main_v5 c = o5 m c := by
  unfold outs; rw [dif_neg (by decide), dif_pos rfl]

theorem V2_eq (c : Dev nD) : Gen.V2 m (outs m) c = X2 m c :=
  congrArg (fun v => (Function.update (Gen.V1 m c) main_v2 v : Valuation τ sig (Elt F))) (outs_v2 m c)
theorem V3_eq (c : Dev nD) : Gen.V3 m (outs m) c = X3 m c :=
  congrArg (fun W => (StableHlo.after hostOps1 W : Valuation τ sig (Elt F))) (V2_eq m c)

/-! ## The proof data of both regions, and what rides beside the buffers -/

/-- Both regions' proof data, each at the contents its region finds. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the inputs as found, the output its write-backs. -/
theorem hF0 (c : Dev nD) (w : Fin cfg0.W) : (pdats m 0 c).arrAt w cfg0.N = Gen.V2 m (outs m) c (Pipeline.arrRef spec0 w) :=
  match w with
  | ⟨0, _⟩ => ((pdats m 0 c).arrAt_in 0 rfl _).trans ((A_eq0 (E1 m) c 0).trans (Gen.V2_of m (outs m) c main_arg0 (by decide)).symm)
  | ⟨1, _⟩ => ((pdats m 0 c).arrAt_in 1 rfl _).trans ((A_eq0 (E1 m) c 1).trans (Gen.V2_of m (outs m) c main_arg4 (by decide)).symm)
  | ⟨2, _⟩ => ((pdats m 0 c).arrAt_in 2 rfl _).trans ((A_eq0 (E1 m) c 2).trans (Gen.V2_of m (outs m) c main_v0 (by decide)).symm)
  | ⟨3, _⟩ => ((pdats m 0 c).arrAt_in 3 rfl _).trans ((A_eq0 (E1 m) c 3).trans (Gen.V2_of m (outs m) c main_arg6 (by decide)).symm)
  | ⟨4, _⟩ => ((pdats m 0 c).arrAt_in 4 rfl _).trans ((A_eq0 (E1 m) c 4).trans (Gen.V2_of m (outs m) c main_v1 (by decide)).symm)
  | ⟨5, _⟩ => by
    show o2 m c = Function.update (Gen.V1 m c) main_v2 (outs m 2 main_v2 c) main_v2
    rw [Function.update_self, outs_v2]

/-- Off region 0's arrays nothing changes. -/
theorem hrest0 (c : Dev nD) (b : Ref sig .tc) (hb : b ∉ Finset.univ.image (Pipeline.arrRef spec0)) :
    Gen.V2 m (outs m) c b = E1 m c b :=
  Gen.V2_of m (outs m) c b (by
    intro h; rw [List.mem_singleton] at h; subst h
    exact hb (Finset.mem_image.mpr ⟨5, Finset.mem_univ _, rfl⟩))

set_option backward.isDefEq.respectTransparency.types false in
/-- REGION 0 as a segment: entered with every unscoped buffer at the contents after the first reshapes, left with the
    intermediate activations at what the write-backs leave and everything else as entered. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves: the inputs as found, the output its write-backs. -/
theorem hF1 (c : Dev nD) (w : Fin cfg1.W) : (pdats m 1 c).arrAt w cfg1.N = Gen.V4 m (outs m) c (Pipeline.arrRef spec1 w) :=
  match w with
  | ⟨0, _⟩ => ((pdats m 1 c).arrAt_in 0 rfl _).trans ((A_eq1 (E3 m) c 0).trans
      ((Gen.V4_of m (outs m) c main_arg1 (by decide)).trans (congrFun (V3_eq m c) _)).symm)
  | ⟨1, _⟩ => ((pdats m 1 c).arrAt_in 1 rfl _).trans ((A_eq1 (E3 m) c 1).trans
      ((Gen.V4_of m (outs m) c main_v2 (by decide)).trans (congrFun (V3_eq m c) _)).symm)
  | ⟨2, _⟩ => ((pdats m 1 c).arrAt_in 2 rfl _).trans ((A_eq1 (E3 m) c 2).trans
      ((Gen.V4_of m (outs m) c main_v2 (by decide)).trans (congrFun (V3_eq m c) _)).symm)
  | ⟨3, _⟩ => ((pdats m 1 c).arrAt_in 3 rfl _).trans ((A_eq1 (E3 m) c 3).trans
      ((Gen.V4_of m (outs m) c main_arg8 (by decide)).trans (congrFun (V3_eq m c) _)).symm)
  | ⟨4, _⟩ => ((pdats m 1 c).arrAt_in 4 rfl _).trans ((A_eq1 (E3 m) c 4).trans
      ((Gen.V4_of m (outs m) c main_v3 (by decide)).trans (congrFun (V3_eq m c) _)).symm)
  | ⟨5, _⟩ => ((pdats m 1 c).arrAt_in 5 rfl _).trans ((A_eq1 (E3 m) c 5).trans
      ((Gen.V4_of m (outs m) c main_arg10 (by decide)).trans (congrFun (V3_eq m c) _)).symm)
  | ⟨6, _⟩ => ((pdats m 1 c).arrAt_in 6 rfl _).trans ((A_eq1 (E3 m) c 6).trans
      ((Gen.V4_of m (outs m) c main_v4 (by decide)).trans (congrFun (V3_eq m c) _)).symm)
  | ⟨7, _⟩ => by
    show o5 m c = Function.update (Gen.V3 m (outs m) c) main_v5 (outs m 4 main_v5 c) main_v5
    rw [Function.update_self, outs_v5]

/-- Off region 1's arrays nothing changes. -/
theorem hrest1 (c : Dev nD) (b : Ref sig .tc) (hb : b ∉ Finset.univ.image (Pipeline.arrRef spec1)) :
    Gen.V4 m (outs m) c b = E3 m c b :=
  (Gen.V4_of m (outs m) c b (by
    intro h; rw [List.mem_singleton] at h; subst h
    exact hb (Finset.mem_image.mpr ⟨7, Finset.mem_univ _, rfl⟩))).trans (congrFun (V3_eq m c) _)

set_option backward.isDefEq.respectTransparency.types false in
/-- REGION 1 as a segment: entered with every unscoped buffer at the contents after the second reshapes, left with its
    result array at what the write-backs leave and everything else as entered. The buffer behind its two windows on the
    intermediate activations is cut in two halves on the way in and rejoined on the way out. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit : (unscopedBufs c (E3 m c) : sProp 𝕄)
        ⊢ iprop((pdats m 1 c).arrays ((pdats m 1 c).arrAt · 0) ∗ Pipeline.unscopedRest spec1 c (E3 m c)) := by
      rw [Pipeline.unscopedBufs_split₀ cfgs 1 winFacts₀1.arr_unscoped c (E3 m c)]
      exact sep_mono (arrays1_of_bufs (pdats m 1 c) (q_eq1 (E3 m) c) (E3 m c) _ fun w => A_eq1 (E3 m) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (fun b => Gen.V4 m (outs m) c b) : sProp 𝕄) := by
      rw [Pipeline.unscopedBufs_split₀ cfgs 1 winFacts₀1.arr_unscoped c (fun b => Gen.V4 m (outs m) c b)]
      refine sep_mono (bufs_of_arrays1 (pdats m 1 c) (q_eq1 (E3 m) c) (fun b => Gen.V4 m (outs m) c b) _ (hF1 m c)) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped reference of the core is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and the final memory holds every unscoped buffer of each core at the last contents: the launch memory with each host
    stretch applied and each region's result in its place. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Seg.run_eq_chain,
        show (Gen.segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outs m) c) ∗ ∃ r, prngReg c r))
    (hch := fun c => ⟨.rfl, .rfl, .rfl, .rfl, .rfl,
      (show iprop(StableHlo.held (c : Thread nD τ) (Pipeline.ucRefs τ sig) (Gen.V5 m (outs m) c) ∗ R c)
          ⊢ (iprop((StableHlo.held (c : Thread nD τ) (Pipeline.ucRefs τ sig) (Gen.V5 m (outs m) c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun _ h => h)

/-- THE FRAME. Every argument array ends holding its launch contents: no host stretch writes one and no region's
    write-backs touch one, so the last contents at an argument are the launch memory's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c),
     (h c _ (mem_uc main_arg8 (by decide))).trans (Gen.V5_main_arg8 m (outs m) c),
     (h c _ (mem_uc main_arg9 (by decide))).trans (Gen.V5_main_arg9 m (outs m) c),
     (h c _ (mem_uc main_arg10 (by decide))).trans (Gen.V5_main_arg10 m (outs m) c),
     (h c _ (mem_uc main_arg11 (by decide))).trans (Gen.V5_main_arg11 m (outs m) c)⟩)
    (run_main m ρ)

end Cert.KernelIdeal.Hand

end
-- ==== Proof.Spec.lean ====
/-
  The two blocks as functions of whole arrays, entry by entry, over the extended reals.

  Residual block: with h(p,k) = max(sum_l x(p,l) W1(l,k) + b1(k), 0), the entry (p,q) is
  max(x(p,q) + (sum_k h(p,k) W2(k,q) + b2(q)), 0).
  Lattice block: the entry (p,q) is max(sum_k v(p,k) U1(k,q) + c1(q), 0) + max(sum_k (sum_n A(p,n) v(n,k)) U2(k,q) + c2(q), 0).
  Bias vectors are taken as one-row matrices, which is how both programs hand them to the sums.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns, indexed as the programs index their rank-2 arrays. -/
abbrev Mat (a b : Nat) : Type := (⟨2, ![a, b]⟩ : Shape).Idx → EReal

/-- A vector laid out as a one-row matrix. -/
def row {n : Nat} (b : (⟨1, ![n]⟩ : Shape).Idx → EReal) : Mat 1 n := fun i => b (ix1 (i 1))

/-- The hidden layer of the residual block at row `p`, unit `k`. -/
def hidden (x : Mat 10000 256) (W1 : Mat 256 512) (b1 : Mat 1 512) (p : Fin 10000) (k : Fin 512) : EReal :=
  max ((∑ l : Fin 256, x (ix2 p l) * W1 (ix2 l k)) + b1 (ix2 0 k)) 0

/-- The residual block at row `p`, column `q`. -/
def residAt (x : Mat 10000 256) (W1 : Mat 256 512) (b1 : Mat 1 512) (W2 : Mat 512 256) (b2 : Mat 1 256) (p : Fin 10000) (q : Fin 256) : EReal :=
  max (x (ix2 p q) + ((∑ k : Fin 512, hidden x W1 b1 p k * W2 (ix2 k q)) + b2 (ix2 0 q))) 0

/-- The residual block as a whole array. -/
def resid (x : Mat 10000 256) (W1 : Mat 256 512) (b1 : Mat 1 512) (W2 : Mat 512 256) (b2 : Mat 1 256) : Mat 10000 256 :=
  fun i => residAt x W1 b1 W2 b2 (i 0) (i 1)

/-- The adjacency product at row `p`, column `k`. -/
def adj (A : Mat 10000 10000) (v : Mat 10000 256) (p : Fin 10000) (k : Fin 256) : EReal :=
  ∑ n : Fin 10000, A (ix2 p n) * v (ix2 n k)

/-- The lattice block at row `p`, column `q`. -/
def latticeAt (A : Mat 10000 10000) (v : Mat 10000 256) (U1 : Mat 256 256) (c1 : Mat 1 256) (U2 : Mat 256 256) (c2 : Mat 1 256)
    (p : Fin 10000) (q : Fin 256) : EReal :=
  max ((∑ k : Fin 256, v (ix2 p k) * U1 (ix2 k q)) + c1 (ix2 0 q)) 0
    + max ((∑ k : Fin 256, adj A v p k * U2 (ix2 k q)) + c2 (ix2 0 q)) 0

/-- The lattice block as a whole array. -/
def lattice (A : Mat 10000 10000) (v : Mat 10000 256) (U1 : Mat 256 256) (c1 : Mat 1 256) (U2 : Mat 256 256) (c2 : Mat 1 256) : Mat 10000 256 :=
  fun i => latticeAt A v U1 c1 U2 c2 (i 0) (i 1)

end Cert.Spec

end
-- ==== Proof.Ideal.Value0.lean ====
/-
  Region 0's result array at the extended reals: after the five row tiles are written back, the intermediate array is the
  residual block of the arrays the region found.
-/
import proofs.«149684_j6356551598646_1_alg».proof.Proof.Ideal.Data0
import proofs.«149684_j6356551598646_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt Ideal) ((c : Thread nD τ).loc b))

section Tiles

open Idealize.ShloMosaic.ValueIdx
open scoped BigOperators

/-! The first product's operand indices, axis by axis. -/

theorem r0_hidden_lhs_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem r0_hidden_lhs_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem r0_hidden_rhs_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem r0_hidden_rhs_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The first product into the zero splat, read at row `r`, unit `k`: the sum over the 256 input features. -/
theorem r0_hidden_product_apply (a : FVec Ideal S2000x256 .bf16) (b : FVec Ideal S256x512 .bf16) (r : Fin 2000) (k : Fin 512) :
    matmul dot_S2000x256_S256x512_S2000x512_1_0_0_1_n_n none a b (constant S2000x512 .f32 0x00000000#32) (ix2 r k)
      = ∑ l : Fin 256, a (ix2 r l) * b (ix2 l k) := by
  simp only [matmul]
  rw [Ideal.matmul_constant_zero_apply, ← Equiv.sum_comp (contrEquiv1 dot_S2000x256_S256x512_S2000x512_1_0_0_1_n_n 256 rfl rfl).symm]
  refine Finset.sum_congr rfl fun l _ => ?_
  have hl := contrEquiv1_symm_val dot_S2000x256_S256x512_S2000x512_1_0_0_1_n_n 256 rfl rfl l
  have el : dot_S2000x256_S256x512_S2000x512_1_0_0_1_n_n.lhsIdx (ix2 r k) ((contrEquiv1 dot_S2000x256_S256x512_S2000x512_1_0_0_1_n_n 256 rfl rfl).symm l) = ix2 r l := funext fun ax => Fin.ext (by
    match ax with
    | ⟨0, _⟩ => exact r0_hidden_lhs_0 _ _
    | ⟨1, _⟩ => exact (r0_hidden_lhs_1 _ _).trans hl)
  have er : dot_S2000x256_S256x512_S2000x512_1_0_0_1_n_n.rhsIdx (ix2 r k) ((contrEquiv1 dot_S2000x256_S256x512_S2000x512_1_0_0_1_n_n 256 rfl rfl).symm l) = ix2 l k := funext fun ax => Fin.ext (by
    match ax with
    | ⟨0, _⟩ => exact (r0_hidden_rhs_0 _ _).trans hl
    | ⟨1, _⟩ => exact r0_hidden_rhs_1 _ _)
  rw [el, er]

/-! The second product's operand indices, axis by axis. -/

theorem r0_out_lhs_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem r0_out_lhs_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem r0_out_rhs_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem r0_out_rhs_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The second product into the zero splat, read at row `r`, column `q`: the sum over the 512 hidden units. -/
theorem r0_out_product_apply (a : FVec Ideal S2000x512 .bf16) (b : FVec Ideal S512x256 .bf16) (r : Fin 2000) (q : Fin 256) :
    matmul dot_S2000x512_S512x256_S2000x256_1_0_0_1_n_n none a b (constant S2000x256 .f32 0x00000000#32) (ix2 r q)
      = ∑ k : Fin 512, a (ix2 r k) * b (ix2 k q) := by
  simp only [matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 r q) ((contrEquiv1 dot_S2000x512_S512x256_S2000x256_1_0_0_1_n_n 512 rfl rfl).symm k) = ix2 r k := funext fun ax => Fin.ext (by
    match ax with
    | ⟨0, _⟩ => exact r0_out_lhs_0 _ _
    | ⟨1, _⟩ => exact (r0_out_lhs_1 _ _).trans hk)
  have er : dot_S2000x512_S512x256_S2000x256_1_0_0_1_n_n.rhsIdx (ix2 r q) ((contrEquiv1 dot_S2000x512_S512x256_S2000x256_1_0_0_1_n_n 512 rfl rfl).symm k) = ix2 k q := funext fun ax => Fin.ext (by
    match ax with
    | ⟨0, _⟩ => exact (r0_out_rhs_0 _ _).trans hk
    | ⟨1, _⟩ => exact r0_out_rhs_1 _ _)
  rw [el, er]

/-- The first bias row spread over the 2000 rows, read at row `r`, unit `k`: the row's entry `k`. -/
theorem r0_bias1_apply (b : Vec Ideal S1x512 .f32) (r : Fin 2000) (k : Fin 512) :
    broadcastTo S2000x512 (shapeCast S1x512 b shapeCasts_S1x512_S1x512) broadcasts_S1x512_S2000x512 (ix2 r k) = b (ix2 0 k) := by
  rw [shapeCast_self]
  exact broadcastTo_apply b broadcasts_S1x512_S2000x512 (ix2 r k) (ix2 0 k) (fun a => match a with
    | ⟨0, _⟩ => by show 0 = if (1 : Nat) = 1 then 0 else r.val; rw [if_pos rfl]
    | ⟨1, _⟩ => by show k.val = if (512 : Nat) = 1 then 0 else k.val; rw [if_neg (by decide)])

/-- The second bias row spread over the 2000 rows, read at row `r`, column `q`: the row's entry `q`. -/
theorem r0_bias2_apply (b : Vec Ideal S1x256 .f32) (r : Fin 2000) (q : Fin 256) :
    broadcastTo S2000x256 (shapeCast S1x256 b shapeCasts_S1x256_S1x256) broadcasts_S1x256_S2000x256 (ix2 r q) = b (ix2 0 q) := by
  rw [shapeCast_self]
  exact broadcastTo_apply b broadcasts_S1x256_S2000x256 (ix2 r q) (ix2 0 q) (fun a => match a with
    | ⟨0, _⟩ => by show 0 = if (1 : Nat) = 1 then 0 else r.val; rw [if_pos rfl]
    | ⟨1, _⟩ => by show q.val = if (256 : Nat) = 1 then 0 else q.val; rw [if_neg (by decide)])

/-- The body's stored value at row `r`, column `q` of its tile: the residual block's formula on the loaded tiles. -/
theorem r0_tile_value_at (x0 : Vec Ideal S2000x256 .f32) (x1 : Vec Ideal S256x512 .f32) (x2 : Vec Ideal S1x512 .f32)
    (x3 : Vec Ideal S512x256 .f32) (x4 : Vec Ideal S1x256 .f32) (r : Fin 2000) (q : Fin 256) :
    k0_pay1 x0 x1 x2 x3 x4 (ix2 r q)
      = max (x0 (ix2 r q) + ((∑ k : Fin 512, max ((∑ l : Fin 256, x0 (ix2 r l) * x1 (ix2 l k)) + x2 (ix2 0 k)) 0 * x3 (ix2 k q))
          + x4 (ix2 0 q))) 0 := by
  unfold k0_pay1
  have hzero : (FloatOps.ofBits (F := Ideal) .f32 0x00000000#32) = (0 : EReal) := Ideal.ofBits_zero_f32
  rw [truncf_apply, maximumf_apply, addf_apply, addf_apply, r0_out_product_apply, r0_bias2_apply, broadcast_apply, hzero]
  refine congrArg (fun s => max (x0 (ix2 r q) + (s + x4 (ix2 0 q))) 0) (Finset.sum_congr rfl fun k _ => ?_)
  rw [truncf_apply, maximumf_apply, addf_apply, r0_hidden_product_apply, r0_bias1_apply, broadcast_apply]
  rfl

/-- On a tile whose rows are rows `b * 2000 …` of the activations, with both weight matrices and both bias rows whole, the
    stored value at row `r`, column `q` is the residual block's entry at the array's row `b * 2000 + r`. -/
theorem r0_tile_value_eq_residAt (X : Cert.Spec.Mat 10000 256) (W1 : Cert.Spec.Mat 256 512) (b1 : Cert.Spec.Mat 1 512)
    (W2 : Cert.Spec.Mat 512 256) (b2 : Cert.Spec.Mat 1 256)
    (x0 : Vec Ideal S2000x256 .f32) (x1 : Vec Ideal S256x512 .f32) (x2 : Vec Ideal S1x512 .f32)
    (x3 : Vec Ideal S512x256 .f32) (x4 : Vec Ideal S1x256 .f32) (b : Nat) (hb : b < 5)
    (h0 : ∀ (r : Fin 2000) (l : Fin 256), x0 (ix2 r l) = X (ix2 (⟨b * 2000 + r.val, by omega⟩ : Fin 10000) l))
    (h1 : x1 = W1) (h2 : x2 = b1) (h3 : x3 = W2) (h4 : x4 = b2) (r : Fin 2000) (q : Fin 256) :
    k0_pay1 x0 x1 x2 x3 x4 (ix2 r q) = Cert.Spec.residAt X W1 b1 W2 b2 ⟨b * 2000 + r.val, by omega⟩ q := by
  subst h1 h2 h3 h4
  rw [r0_tile_value_at]
  unfold Cert.Spec.residAt Cert.Spec.hidden
  simp only [h0]

/-! ## From the tiles to the array -/

/-- The whole-buffer rectangles start at offset zero on both axes. -/
theorem r0_zero_offsets : (![0, 0] : Fin 2 → Nat) = fun _ => 0 := funext fun a => by fin_cases a <;> rfl

/-- The printed index maps, decided over the 5 points: the activations' tile and the output tile sit at block row `t`,
    block column 0; the weights and biases at block (0, 0). -/
theorem r0_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The activations' tile at point `t` is rows `2000 t … 2000 t + 1999` of the array. -/
theorem r0_x_tile_apply (c : Dev nD) (t : Fin cfg0.N) (ht : t.val < 5) (r : Fin 2000) (l : Fin 256) :
    (iblk0 V c 0 t : Vec Ideal S2000x256 .f32) (ix2 r l)
      = (V c main_arg0 : Cert.Spec.Mat 10000 256) (ix2 (⟨t.val * 2000 + r.val, by omega⟩ : Fin 10000) l) := by
  obtain ⟨e0, e1, -⟩ := r0_block_indices t
  unfold iblk0
  rw [View.read_apply]
  show V c main_arg0 _ = V c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 256 + 1 * l.val = l.val; rw [e1]; omega

/-- The first weight matrix's block at every point is the whole matrix. -/
theorem r0_w1_block_eq (c : Dev nD) (t : Fin cfg0.N) :
    (iblk0 V c 1 t : Vec Ideal S256x512 .f32) = (V c main_arg4 : Cert.Spec.Mat 256 512) := by
  obtain ⟨-, -, e0, e1, -⟩ := r0_block_indices t
  funext x
  unfold iblk0
  rw [View.read_apply]
  show V c main_arg4 _ = V c main_arg4 x
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 512 + 1 * (x 1).val = (x 1).val; rw [e1]; omega

/-- The first bias row's block at every point is the whole row. -/
theorem r0_b1_block_eq (c : Dev nD) (t : Fin cfg0.N) :
    (iblk0 V c 2 t : Vec Ideal S1x512 .f32) = (V c main_v0 : Cert.Spec.Mat 1 512) := by
  obtain ⟨-, -, -, -, e0, e1, -⟩ := r0_block_indices t
  funext x
  unfold iblk0
  rw [View.read_apply]
  show V c main_v0 _ = V c main_v0 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 512 + 1 * (x 1).val = (x 1).val; rw [e1]; omega

/-- The second weight matrix's block at every point is the whole matrix. -/
theorem r0_w2_block_eq (c : Dev nD) (t : Fin cfg0.N) :
    (iblk0 V c 3 t : Vec Ideal S512x256 .f32) = (V c main_arg6 : Cert.Spec.Mat 512 256) := by
  obtain ⟨-, -, -, -, -, -, e0, e1, -⟩ := r0_block_indices t
  funext x
  unfold iblk0
  rw [View.read_apply]
  show V c main_arg6 _ = V c main_arg6 x
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 256 + 1 * (x 1).val = (x 1).val; rw [e1]; omega

/-- The second bias row's block at every point is the whole row. -/
theorem r0_b2_block_eq (c : Dev nD) (t : Fin cfg0.N) :
    (iblk0 V c 4 t : Vec Ideal S1x256 .f32) = (V c main_v1 : Cert.Spec.Mat 1 256) := by
  obtain ⟨-, -, -, -, -, -, -, -, e0, e1, -⟩ := r0_block_indices t
  funext x
  unfold iblk0
  rw [View.read_apply]
  show V c main_v1 _ = V c main_v1 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- What point `t` writes back is block `t` of the residual block of the found arrays. -/
theorem r0_written_back_eq (c : Dev nD) (t : Fin cfg0.N) :
    (dat0 (F := Ideal) V c).flushed 5 t
      = ((cfg0.win 5).blk t).view.read (Elt Ideal)
          (Cert.Spec.resid (V c main_arg0) (V c main_arg4) (V c main_v0) (V c main_arg6) (V c main_v1)) := by
  have ht : t.val < 5 := Nat.lt_of_lt_of_eq t.isLt N_0
  obtain ⟨-, -, -, -, -, -, -, -, -, -, e0, e1⟩ := r0_block_indices t
  show (cfg0.win 5).cut (grid0.coords t) ((dat0 (F := Ideal) V c).after 5 t) = _
  rw [after0_5]
  unfold out0_5
  rw [View.canon_unit_zero r0_zero_offsets]
  simp only [View.ld_unit_zero (S := S2000x256) r0_zero_offsets, View.ld_unit_zero (S := S256x512) r0_zero_offsets, View.ld_unit_zero (S := S1x512) r0_zero_offsets,
    View.ld_unit_zero (S := S512x256) r0_zero_offsets, View.ld_unit_zero (S := S1x256) r0_zero_offsets]
  refine funext fun (j : S2000x256.Idx) => ?_
  obtain ⟨r, q, rfl⟩ : ∃ (r : Fin 2000) (q : Fin 256), j = ix2 r q := ⟨j 0, j 1, eq_ix2 j⟩
  show k0_pay1 (iblk0 V c 0 t) (iblk0 V c 1 t) (iblk0 V c 2 t) (iblk0 V c 3 t) (iblk0 V c 4 t) (ix2 r q)
    = Cert.Spec.resid (V c main_arg0) (V c main_arg4) (V c main_v0) (V c main_arg6) (V c main_v1)
        (((cfg0.win 5).blk t).view.emb (ix2 r q))
  refine (r0_tile_value_eq_residAt (V c main_arg0) (V c main_arg4) (V c main_v0) (V c main_arg6) (V c main_v1)
    (iblk0 V c 0 t) (iblk0 V c 1 t) (iblk0 V c 2 t) (iblk0 V c 3 t) (iblk0 V c 4 t) t.val ht
    (fun r l => r0_x_tile_apply V c t ht r l) (r0_w1_block_eq V c t) (r0_b1_block_eq V c t) (r0_w2_block_eq V c t) (r0_b2_block_eq V c t) r q).trans ?_
  have p0 : ((((cfg0.win 5).blk t).view.emb (ix2 r q) : S10000x256.Idx) 0) = (⟨t.val * 2000 + r.val, by omega⟩ : Fin 10000) :=
    Fin.ext (by show win0_5.index t (0 : Fin 2) * 2000 + 1 * r.val = t.val * 2000 + r.val; rw [e0]; omega)
  have p1 : ((((cfg0.win 5).blk t).view.emb (ix2 r q) : S10000x256.Idx) 1) = q :=
    Fin.ext (by show win0_5.index t (1 : Fin 2) * 256 + 1 * q.val = q.val; rw [e1]; omega)
  show _ = Cert.Spec.residAt _ _ _ _ _ ((((cfg0.win 5).blk t).view.emb (ix2 r q) : S10000x256.Idx) 0)
    ((((cfg0.win 5).blk t).view.emb (ix2 r q) : S10000x256.Idx) 1)
  rw [p0, p1]

/-- An index of the array is in point `t`'s block iff each coordinate is in the block's range on its axis. -/
theorem r0_mem_out_tile (t : Fin cfg0.N) (i : S10000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v2).slice (win0_5.rect t)).set ↔ _
  rw [View.set_slice_whole, Rect.mem_set_unit]
  exact Iff.rfl

/-- Row `p` of the array lies in the block of point `p / 2000`: the five row tiles fill the array. -/
theorem r0_row_tiles_cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega : (i 0).val / 2000 < 5) N_0.symm⟩, rfl⟩
  obtain ⟨-, -, -, -, -, -, -, -, -, -, e0, e1⟩ := r0_block_indices t
  refine ⟨t, flush0_5 t, ?_⟩
  rw [r0_mem_out_tile]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

end Tiles

/-- The array behind region 0's output window after the run is the residual block of the found arrays. -/
theorem resid_value (c : Dev nD) :
    (dat0 (F := Ideal) V c).arrAt 5 cfg0.N
      = Cert.Spec.resid (V c main_arg0) (V c main_arg4) (V c main_v0) (V c main_arg6) (V c main_v1) := by
  exact (dat0 (F := Ideal) V c).arrAt_eq_of_cover 5
    (Cert.Spec.resid (V c main_arg0) (V c main_arg4) (V c main_v0) (V c main_arg6) (V c main_v1))
    (fun t _ => r0_written_back_eq V c t) r0_row_tiles_cover

end Cert.KernelIdeal.Hand

end
-- ==== Proof.Ideal.Value1.lean ====
/-
  Region 1's result array at the extended reals: after the 125 row tiles are written back, the result array is the lattice
  block of the arrays the region found.
-/
import proofs.«149684_j6356551598646_1_alg».proof.Proof.Ideal.Data1
import proofs.«149684_j6356551598646_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt Ideal) ((c : Thread nD τ).loc b))

/-! ## The lattice block, one 80-row tile at a time

The body's value on a tile entry by entry, the seven windows' blocks as rows of the found arrays, and the 125 tiles covering
the result array. -/
namespace LatticeTile

section Payload

open Idealize.ShloMosaic.ValueIdx
open scoped BigOperators

/-! ## The two contractions' operand indices, axis by axis

The adjacency product contracts the 10000 columns of the adjacency tile against the 10000 rows of the activations; the two
linear maps share one contraction of 256 columns against 256 rows. -/

theorem adjL_0 (i : S80x256.Idx) (p : dot_S80x10000_S10000x256_S80x256_1_0_0_1_n_n.contr.Idx) :
    (dot_S80x10000_S10000x256_S80x256_1_0_0_1_n_n.lhsIdx i p 0).val = (i 0).val := by
  unfold DotDims.lhsIdx
  rw [dif_neg (show ¬(0 : Fin S80x10000.rank) ∈ dot_S80x10000_S10000x256_S80x256_1_0_0_1_n_n.lhsBatch by decide), dif_pos (show (0 : Fin S80x10000.rank) ∈ dot_S80x10000_S10000x256_S80x256_1_0_0_1_n_n.lhsNonContracting by decide)]
  rfl
theorem adjL_1 (i : S80x256.Idx) (p : dot_S80x10000_S10000x256_S80x256_1_0_0_1_n_n.contr.Idx) :
    (dot_S80x10000_S10000x256_S80x256_1_0_0_1_n_n.lhsIdx i p 1).val = (p ⟨0, by decide⟩).val :=
  dot_S80x10000_S10000x256_S80x256_1_0_0_1_n_n.lhsIdx_val_of_single rfl i p
theorem adjR_0 (i : S80x256.Idx) (p : dot_S80x10000_S10000x256_S80x256_1_0_0_1_n_n.contr.Idx) :
    (dot_S80x10000_S10000x256_S80x256_1_0_0_1_n_n.rhsIdx i p 0).val = (p ⟨0, by decide⟩).val :=
  dot_S80x10000_S10000x256_S80x256_1_0_0_1_n_n.rhsIdx_val_of_single rfl i p
theorem adjR_1 (i : S80x256.Idx) (p : dot_S80x10000_S10000x256_S80x256_1_0_0_1_n_n.contr.Idx) :
    (dot_S80x10000_S10000x256_S80x256_1_0_0_1_n_n.rhsIdx i p 1).val = (i 1).val := by
  unfold DotDims.rhsIdx
  rw [dif_neg (show ¬(1 : Fin S10000x256.rank) ∈ dot_S80x10000_S10000x256_S80x256_1_0_0_1_n_n.rhsBatch by decide), dif_pos (show (1 : Fin S10000x256.rank) ∈ dot_S80x10000_S10000x256_S80x256_1_0_0_1_n_n.rhsNonContracting by decide)]
  rfl

theorem linL_0 (i : S80x256.Idx) (p : dot_S80x256_S256x256_S80x256_1_0_0_1_n_n.contr.Idx) :
    (dot_S80x256_S256x256_S80x256_1_0_0_1_n_n.lhsIdx i p 0).val = (i 0).val := by
  unfold DotDims.lhsIdx
  rw [dif_neg (show ¬(0 : Fin S80x256.rank) ∈ dot_S80x256_S256x256_S80x256_1_0_0_1_n_n.lhsBatch by decide), dif_pos (show (0 : Fin S80x256.rank) ∈ dot_S80x256_S256x256_S80x256_1_0_0_1_n_n.lhsNonContracting by decide)]
  rfl
theorem linL_1 (i : S80x256.Idx) (p : dot_S80x256_S256x256_S80x256_1_0_0_1_n_n.contr.Idx) :
    (dot_S80x256_S256x256_S80x256_1_0_0_1_n_n.lhsIdx i p 1).val = (p ⟨0, by decide⟩).val :=
  dot_S80x256_S256x256_S80x256_1_0_0_1_n_n.lhsIdx_val_of_single rfl i p
theorem linR_0 (i : S80x256.Idx) (p : dot_S80x256_S256x256_S80x256_1_0_0_1_n_n.contr.Idx) :
    (dot_S80x256_S256x256_S80x256_1_0_0_1_n_n.rhsIdx i p 0).val = (p ⟨0, by decide⟩).val :=
  dot_S80x256_S256x256_S80x256_1_0_0_1_n_n.rhsIdx_val_of_single rfl i p
theorem linR_1 (i : S80x256.Idx) (p : dot_S80x256_S256x256_S80x256_1_0_0_1_n_n.contr.Idx) :
    (dot_S80x256_S256x256_S80x256_1_0_0_1_n_n.rhsIdx i p 1).val = (i 1).val := by
  unfold DotDims.rhsIdx
  rw [dif_neg (show ¬(1 : Fin S256x256.rank) ∈ dot_S80x256_S256x256_S80x256_1_0_0_1_n_n.rhsBatch by decide), dif_pos (show (1 : Fin S256x256.rank) ∈ dot_S80x256_S256x256_S80x256_1_0_0_1_n_n.rhsNonContracting by decide)]
  rfl

/-- The adjacency product into a zero accumulator, entry (r, k): the row of the tile against the column of the activations. -/
theorem adjProd_apply (a : FVec Ideal S80x10000 .bf16) (b : FVec Ideal S10000x256 .bf16) (r : Fin 80) (k : Fin 256) :
    matmul dot_S80x10000_S10000x256_S80x256_1_0_0_1_n_n none a b (constant (F := Ideal) S80x256 .f32 0x00000000#32) (ix2 r k)
      = ∑ n : Fin 10000, a (ix2 r n) * b (ix2 n k) := by
  show FloatOps.matmul dot_S80x10000_S10000x256_S80x256_1_0_0_1_n_n none a b (constant S80x256 .f32 0x00000000#32) (ix2 r k) = _
  rw [Ideal.matmul_constant_zero_apply, ← Equiv.sum_comp (contrEquiv1 dot_S80x10000_S10000x256_S80x256_1_0_0_1_n_n 10000 rfl rfl).symm]
  refine Finset.sum_congr rfl fun n _ => ?_
  have hn := contrEquiv1_symm_val dot_S80x10000_S10000x256_S80x256_1_0_0_1_n_n 10000 rfl rfl n
  have el : dot_S80x10000_S10000x256_S80x256_1_0_0_1_n_n.lhsIdx (ix2 r k) ((contrEquiv1 dot_S80x10000_S10000x256_S80x256_1_0_0_1_n_n 10000 rfl rfl).symm n) = ix2 r n := funext fun d => Fin.ext (by
    match d with
    | ⟨0, _⟩ => exact adjL_0 _ _
    | ⟨1, _⟩ => exact (adjL_1 _ _).trans hn)
  have er : dot_S80x10000_S10000x256_S80x256_1_0_0_1_n_n.rhsIdx (ix2 r k) ((contrEquiv1 dot_S80x10000_S10000x256_S80x256_1_0_0_1_n_n 10000 rfl rfl).symm n) = ix2 n k := funext fun d => Fin.ext (by
    match d with
    | ⟨0, _⟩ => exact (adjR_0 _ _).trans hn
    | ⟨1, _⟩ => exact adjR_1 _ _)
  rw [el, er]

/-- A linear map into a zero accumulator, entry (r, q): the row of the left factor against the column of the weights. -/
theorem linProd_apply (a : FVec Ideal S80x256 .bf16) (b : FVec Ideal S256x256 .bf16) (r : Fin 80) (q : Fin 256) :
    matmul dot_S80x256_S256x256_S80x256_1_0_0_1_n_n none a b (constant (F := Ideal) S80x256 .f32 0x00000000#32) (ix2 r q)
      = ∑ k : Fin 256, a (ix2 r k) * b (ix2 k q) := by
  show FloatOps.matmul dot_S80x256_S256x256_S80x256_1_0_0_1_n_n none a b (constant S80x256 .f32 0x00000000#32) (ix2 r q) = _
  rw [Ideal.matmul_constant_zero_apply, ← Equiv.sum_comp (contrEquiv1 dot_S80x256_S256x256_S80x256_1_0_0_1_n_n 256 rfl rfl).symm]
  refine Finset.sum_congr rfl fun k _ => ?_
  have hk := contrEquiv1_symm_val dot_S80x256_S256x256_S80x256_1_0_0_1_n_n 256 rfl rfl k
  have el : dot_S80x256_S256x256_S80x256_1_0_0_1_n_n.lhsIdx (ix2 r q) ((contrEquiv1 dot_S80x256_S256x256_S80x256_1_0_0_1_n_n 256 rfl rfl).symm k) = ix2 r k := funext fun d => Fin.ext (by
    match d with
    | ⟨0, _⟩ => exact linL_0 _ _
    | ⟨1, _⟩ => exact (linL_1 _ _).trans hk)
  have er : dot_S80x256_S256x256_S80x256_1_0_0_1_n_n.rhsIdx (ix2 r q) ((contrEquiv1 dot_S80x256_S256x256_S80x256_1_0_0_1_n_n 256 rfl rfl).symm k) = ix2 k q := funext fun d => Fin.ext (by
    match d with
    | ⟨0, _⟩ => exact (linR_0 _ _).trans hk
    | ⟨1, _⟩ => exact linR_1 _ _)
  rw [el, er]

/-- A bias row laid along the 80 rows of the tile, entry (r, q): the row's entry (0, q). -/
theorem biasRow_apply (y : FVec Ideal S1x256 .f32) (r : Fin 80) (q : Fin 256) :
    broadcastTo S80x256 y broadcasts_S1x256_S80x256 (ix2 r q) = y (ix2 0 q) :=
  broadcastTo_apply y broadcasts_S1x256_S80x256 (ix2 r q) (ix2 0 q) (fun d => by
    match d with
    | ⟨0, _⟩ => rfl
    | ⟨1, _⟩ => rfl)

/-- The body's value at entry (r, q) of the tile, from the seven loaded blocks: the first linear map of the activations'
    rows with its bias, clamped at zero, plus the second linear map of the adjacency product with its bias, clamped at zero. -/
theorem pay_apply (v0 : Vec Ideal S80x10000 .f32) (v2 : Vec Ideal S10000x256 .bf16) (v5 : Vec Ideal S256x256 .f32) (v9 : Vec Ideal S1x256 .f32)
    (v15 : Vec Ideal S80x256 .bf16) (v17 : Vec Ideal S256x256 .f32) (v20 : Vec Ideal S1x256 .f32) (r : Fin 80) (q : Fin 256) :
    k1_pay1 (F := Ideal) v0 v2 v5 v9 v15 v17 v20 (ix2 r q)
      = max ((∑ k : Fin 256, v15 (ix2 r k) * v17 (ix2 k q)) + v20 (ix2 0 q)) 0
        + max ((∑ k : Fin 256, (∑ n : Fin 10000, v0 (ix2 r n) * v2 (ix2 n k)) * v5 (ix2 k q)) + v9 (ix2 0 q)) 0 := by
  unfold k1_pay1
  simp only [shapeCast_self]
  rw [addf_apply, maximumf_apply, maximumf_apply, addf_apply, addf_apply,
    biasRow_apply, biasRow_apply, linProd_apply, linProd_apply]
  simp only [truncf_apply, adjProd_apply]
  rw [show (FloatOps.ofBits .f32 0x00000000#32 : Ideal .f32) = 0 from Ideal.ofBits_zero_f32]
  rfl

end Payload

section Blocks

open Idealize.ShloMosaic.ValueIdx
open scoped BigOperators

/-- From the seven blocks to the arrays: when the adjacency tile and the activations' tile are rows p of their arrays and
    the other five blocks are whole arrays, the body's value at (r, q) is the lattice block at (p, q). -/
theorem tile_apply (A : Cert.Spec.Mat 10000 10000) (v : Cert.Spec.Mat 10000 256) (U1 : Cert.Spec.Mat 256 256) (c1 : Cert.Spec.Mat 1 256)
    (U2 : Cert.Spec.Mat 256 256) (c2 : Cert.Spec.Mat 1 256)
    (x0 : Vec Ideal S80x10000 .f32) (x1 : Vec Ideal S10000x256 .bf16) (x2 : Vec Ideal S80x256 .bf16) (x3 : Vec Ideal S256x256 .f32)
    (x4 : Vec Ideal S1x256 .f32) (x5 : Vec Ideal S256x256 .f32) (x6 : Vec Ideal S1x256 .f32)
    (r : Fin 80) (q : Fin 256) (p : Fin 10000)
    (h0 : ∀ n : Fin 10000, x0 (ix2 r n) = A (ix2 p n)) (h1 : x1 = v) (h2 : ∀ k : Fin 256, x2 (ix2 r k) = v (ix2 p k))
    (h3 : x3 = U1) (h4 : x4 = c1) (h5 : x5 = U2) (h6 : x6 = c2) :
    k1_pay1 (F := Ideal) x0 x1 x5 x6 x2 x3 x4 (ix2 r q) = Cert.Spec.latticeAt A v U1 c1 U2 c2 p q := by
  rw [pay_apply]
  subst h1 h3 h4 h5 h6
  unfold Cert.Spec.latticeAt Cert.Spec.adj
  simp only [h0, h2]

theorem hz : (![0, 0] : Fin 2 → Nat) = fun _ => 0 := funext fun a => by fin_cases a <;> rfl

/-- The block indices of region 1's windows, decided over the 125 points: the adjacency tile, the activations' tile and the
    output tile are row block t; the five other windows are the one block of their arrays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The adjacency tile at point t is rows 80 t + r of the adjacency array. -/
theorem blk0_apply (c : Dev nD) (t : Fin cfg1.N) (r : Fin 80) (n : Fin 10000) (p : Fin 10000) (hp : p.val = t.val * 80 + r.val) :
    (iblk1 V c 0 t : Vec Ideal S80x10000 .f32) (ix2 r n) = (V c main_arg1 : S10000x10000.Idx → EReal) (ix2 p n) := by
  obtain ⟨e0, e1, -⟩ := idx_facts1 t
  unfold iblk1
  rw [View.read_apply]
  show V c main_arg1 (((cfg1.win 0).blk t).view.emb (ix2 r n)) = V c main_arg1 (ix2 p n)
  refine congrArg _ (funext fun a => Fin.ext ?_)
  match a with
  | ⟨0, _⟩ => show win1_0.index t (0 : Fin 2) * 80 + 1 * r.val = p.val; rw [e0, hp]; omega
  | ⟨1, _⟩ => show win1_0.index t (1 : Fin 2) * 10000 + 1 * n.val = n.val; rw [e1]; omega

/-- The activations' tile at point t is rows 80 t + r of the activations. -/
theorem blk2_apply (c : Dev nD) (t : Fin cfg1.N) (r : Fin 80) (k : Fin 256) (p : Fin 10000) (hp : p.val = t.val * 80 + r.val) :
    (iblk1 V c 2 t : Vec Ideal S80x256 .bf16) (ix2 r k) = (V c main_v2 : S10000x256.Idx → EReal) (ix2 p k) := by
  obtain ⟨-, -, -, -, e0, e1, -⟩ := idx_facts1 t
  unfold iblk1
  rw [View.read_apply]
  show V c main_v2 (((cfg1.win 2).blk t).view.emb (ix2 r k)) = V c main_v2 (ix2 p k)
  refine congrArg _ (funext fun a => Fin.ext ?_)
  match a with
  | ⟨0, _⟩ => show win1_2.index t (0 : Fin 2) * 80 + 1 * r.val = p.val; rw [e0, hp]; omega
  | ⟨1, _⟩ => show win1_2.index t (1 : Fin 2) * 256 + 1 * k.val = k.val; rw [e1]; omega

/-- The whole-array window on the activations holds the activations at every point. -/
theorem blk1_eq (c : Dev nD) (t : Fin cfg1.N) :
    (iblk1 V c 1 t : Vec Ideal S10000x256 .bf16) = (V c main_v2 : S10000x256.Idx → EReal) := by
  obtain ⟨-, -, e0, e1, -⟩ := idx_facts1 t
  funext x
  unfold iblk1
  rw [View.read_apply]
  show V c main_v2 (((cfg1.win 1).blk t).view.emb x) = V c main_v2 x
  refine congrArg _ (funext fun a => Fin.ext ?_)
  match a with
  | ⟨0, _⟩ => show win1_1.index t (0 : Fin 2) * 10000 + 1 * (x 0).val = (x 0).val; rw [e0]; omega
  | ⟨1, _⟩ => show win1_1.index t (1 : Fin 2) * 256 + 1 * (x 1).val = (x 1).val; rw [e1]; omega

/-- The first weight's window holds the whole weight. -/
theorem blk3_eq (c : Dev nD) (t : Fin cfg1.N) :
    (iblk1 V c 3 t : Vec Ideal S256x256 .f32) = (V c main_arg8 : S256x256.Idx → EReal) := by
  obtain ⟨-, -, -, -, -, -, e0, e1, -⟩ := idx_facts1 t
  funext x
  unfold iblk1
  rw [View.read_apply]
  show V c main_arg8 (((cfg1.win 3).blk t).view.emb x) = V c main_arg8 x
  refine congrArg _ (funext fun a => Fin.ext ?_)
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- The first bias row's window holds the whole row. -/
theorem blk4_eq (c : Dev nD) (t : Fin cfg1.N) :
    (iblk1 V c 4 t : Vec Ideal S1x256 .f32) = (V c main_v3 : S1x256.Idx → EReal) := by
  obtain ⟨-, -, -, -, -, -, -, -, e0, e1, -⟩ := idx_facts1 t
  funext x
  unfold iblk1
  rw [View.read_apply]
  show V c main_v3 (((cfg1.win 4).blk t).view.emb x) = V c main_v3 x
  refine congrArg _ (funext fun a => Fin.ext ?_)
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The second weight's window holds the whole weight. -/
theorem blk5_eq (c : Dev nD) (t : Fin cfg1.N) :
    (iblk1 V c 5 t : Vec Ideal S256x256 .f32) = (V c main_arg10 : S256x256.Idx → EReal) := by
  obtain ⟨-, -, -, -, -, -, -, -, -, -, e0, e1, -⟩ := idx_facts1 t
  funext x
  unfold iblk1
  rw [View.read_apply]
  show V c main_arg10 (((cfg1.win 5).blk t).view.emb x) = V c main_arg10 x
  refine congrArg _ (funext fun a => Fin.ext ?_)
  match a with
  | ⟨0, _⟩ => show win1_5.index t (0 : Fin 2) * 256 + 1 * (x 0).val = (x 0).val; rw [e0]; omega
  | ⟨1, _⟩ => show win1_5.index t (1 : Fin 2) * 256 + 1 * (x 1).val = (x 1).val; rw [e1]; omega

/-- The second bias row's window holds the whole row. -/
theorem blk6_eq (c : Dev nD) (t : Fin cfg1.N) :
    (iblk1 V c 6 t : Vec Ideal S1x256 .f32) = (V c main_v4 : S1x256.Idx → EReal) := by
  obtain ⟨-, -, -, -, -, -, -, -, -, -, -, -, e0, e1, -⟩ := idx_facts1 t
  funext x
  unfold iblk1
  rw [View.read_apply]
  show V c main_v4 (((cfg1.win 6).blk t).view.emb x) = V c main_v4 x
  refine congrArg _ (funext fun a => Fin.ext ?_)
  match a with
  | ⟨0, _⟩ => show win1_6.index t (0 : Fin 2) * 1 + 1 * (x 0).val = (x 0).val; rw [e0]; omega
  | ⟨1, _⟩ => show win1_6.index t (1 : Fin 2) * 256 + 1 * (x 1).val = (x 1).val; rw [e1]; omega

/-- What point t writes back is the lattice block of the found arrays read through the point's block of the result array. -/
theorem flushed1_eq (c : Dev nD) (t : Fin cfg1.N) :
    (dat1 (F := Ideal) V c).flushed 7 t = ((cfg1.win 7).blk t).view.read (Elt Ideal) (Cert.Spec.lattice (V c main_arg1) (V c main_v2) (V c main_arg8) (V c main_v3) (V c main_arg10) (V c main_v4)) := by
  show (cfg1.win 7).cut (grid1.coords t) ((dat1 V c).after 7 t) = _
  rw [after1_7]
  unfold out1_7
  rw [View.canon_unit_zero hz]
  simp only [View.ld_unit_zero (S := S80x10000) hz, View.ld_unit_zero (S := S10000x256) hz, View.ld_unit_zero (S := S80x256) hz,
    View.ld_unit_zero (S := S256x256) hz, View.ld_unit_zero (S := S1x256) hz]
  obtain ⟨-, -, -, -, -, -, -, -, -, -, -, -, -, -, e0, e1⟩ := idx_facts1 t
  have hN : cfg1.N = 125 := N_1
  have ht : t.val < 125 := hN ▸ t.isLt
  funext j
  obtain ⟨r, q, rfl⟩ : ∃ (r : Fin 80) (q : Fin 256), j = ix2 r q := ⟨j 0, j 1, eq_ix2 (n0 := 80) (n1 := 256) j⟩
  have hr : r.val < 80 := r.isLt
  have hlt : t.val * 80 + r.val < 10000 := by omega
  have hp0 : (((cfg1.win 7).blk t).view.emb (ix2 r q) 0 : Fin 10000) = ⟨t.val * 80 + r.val, hlt⟩ :=
    Fin.ext (by show win1_7.index t (0 : Fin 2) * 80 + 1 * r.val = t.val * 80 + r.val; rw [e0]; omega)
  have hq1 : (((cfg1.win 7).blk t).view.emb (ix2 r q) 1 : Fin 256) = q :=
    Fin.ext (by show win1_7.index t (1 : Fin 2) * 256 + 1 * q.val = q.val; rw [e1]; omega)
  show k1_pay1 (F := Ideal) (iblk1 V c 0 t) (iblk1 V c 1 t) (iblk1 V c 5 t) (iblk1 V c 6 t) (iblk1 V c 2 t) (iblk1 V c 3 t) (iblk1 V c 4 t) (ix2 r q)
    = Cert.Spec.latticeAt (V c main_arg1) (V c main_v2) (V c main_arg8) (V c main_v3) (V c main_arg10) (V c main_v4)
        (((cfg1.win 7).blk t).view.emb (ix2 r q) 0) (((cfg1.win 7).blk t).view.emb (ix2 r q) 1)
  rw [hp0, hq1]
  exact tile_apply (V c main_arg1) (V c main_v2) (V c main_arg8) (V c main_v3) (V c main_arg10) (V c main_v4)
    (iblk1 V c 0 t) (iblk1 V c 1 t) (iblk1 V c 2 t) (iblk1 V c 3 t) (iblk1 V c 4 t) (iblk1 V c 5 t) (iblk1 V c 6 t) r q ⟨t.val * 80 + r.val, hlt⟩
    (fun n => blk0_apply V c t r n _ rfl) (blk1_eq V c t) (fun k => blk2_apply V c t r k _ rfl)
    (blk3_eq V c t) (blk4_eq V c t) (blk5_eq V c t) (blk6_eq V c t)

/-- An index of the result array is in point t's block iff each coordinate is in the block's range on its axis. -/
theorem mem_blk7 (t : Fin cfg1.N) (i : S10000x256.Idx) :
    i ∈ ((cfg1.win 7).blk t).view.set ↔ ∀ a : Fin 2, win1_7.index t a * S80x256.size a ≤ (i a).val ∧ (i a).val < win1_7.index t a * S80x256.size a + S80x256.size a := by
  show i ∈ ((View.whole main_v5).slice (win1_7.rect t)).set ↔ _
  rw [View.set_slice_whole, Rect.mem_set_unit]
  exact Iff.rfl

/-- Row p of the result array is in the block of point p / 80: the 125 row tiles cover the array. -/
theorem cover7 (i : S10000x256.Idx) : ∃ t : Fin cfg1.N, (cfg1.win 7).flush t = true ∧ i ∈ ((cfg1.win 7).blk t).view.set := by
  have h0 : (i 0).val < 10000 := (i 0).isLt
  have h1 : (i 1).val < 256 := (i 1).isLt
  have hN : cfg1.N = 125 := N_1
  obtain ⟨t, ht⟩ : ∃ t : Fin cfg1.N, t.val = (i 0).val / 80 := ⟨⟨(i 0).val / 80, by rw [hN]; omega⟩, rfl⟩
  obtain ⟨-, -, -, -, -, -, -, -, -, -, -, -, -, -, e0, e1⟩ := idx_facts1 t
  refine ⟨t, flush1_7 t, ?_⟩
  rw [mem_blk7]
  intro a
  match a with
  | ⟨0, _⟩ => show win1_7.index t (0 : Fin 2) * 80 ≤ (i 0).val ∧ (i 0).val < win1_7.index t (0 : Fin 2) * 80 + 80; rw [e0, ht]; omega
  | ⟨1, _⟩ => show win1_7.index t (1 : Fin 2) * 256 ≤ (i 1).val ∧ (i 1).val < win1_7.index t (1 : Fin 2) * 256 + 256; rw [e1]; omega

end Blocks

end LatticeTile

/-- The array behind region 1's output window after the run is the lattice block of the found arrays. -/
theorem lattice_value (c : Dev nD) :
    (dat1 (F := Ideal) V c).arrAt 7 cfg1.N
      = Cert.Spec.lattice (V c main_arg1) (V c main_v2) (V c main_arg8) (V c main_v3) (V c main_arg10) (V c main_v4) :=
  (dat1 (F := Ideal) V c).arrAt_eq_of_cover 7 _ (fun t _ => LatticeTile.flushed1_eq V c t) LatticeTile.cover7

end Cert.KernelIdeal.Hand

end
-- ==== Proof.Ideal.Tail.lean ====
/-
  The edge aggregation both programs end with: negative source indices are shifted by the row count, rows are gathered
  at the sources, scatter-added at the destinations into zeros, and the node's own row is added.
-/
import proofs.«149684_j6356551598646_1_alg».proof.Proof.Gen.KernelIdeal

noncomputable section

namespace Cert.KernelIdeal.Hand

open Cert.KernelIdeal Cert.KernelIdeal.Gen
open Idealize.ShloMosaic Idealize.SL.Sem

variable {F : FTy → Type} [FloatOps F]

/-- `h + v` where `h[d] = sum over edges (s, d) of v[s]`, as the host operations compute it. -/
def edgeSum (v : (⟨S10000x256, .f32⟩ : BufTy).Contents (Elt F)) (src dst : (⟨S320000, .i32⟩ : BufTy).Contents (Elt F)) :
    (⟨S10000x256, .f32⟩ : BufTy).Contents (Elt F) :=
  addf (Host.scatterAdd scatter_S10000x256_S320000x1_S320000x256_1_0_0_1
      (broadcastInDim S10000x256 ![] bcast_S_S10000x256 (constant S_ .f32 0x00000000#32))
      (broadcastInDim S320000x1 ![0] bcast_S320000_S320000x1_0 dst)
      (Host.gather gather_S10000x256_S320000x1_S320000x256_1_0_n_n_0_1_1256 v
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src)))) v

end Cert.KernelIdeal.Hand

end
-- ==== Proof.Ideal.KValue.lean ====
/-
  The kernel program's result, at the extended reals, as a function of its arguments. The last host stretch is the edge
  aggregation of what the lattice region left; the lattice region left the lattice block of what it found; it found the
  adjacency and the second-layer weights as launched, the bias vectors as one-row matrices, and the intermediate
  activations as the residual region left them: the residual block of the launch arrays.
-/
import proofs.«149684_j6356551598646_1_alg».proof.Proof.Ideal.Run
import proofs.«149684_j6356551598646_1_alg».proof.Proof.Ideal.Value0
import proofs.«149684_j6356551598646_1_alg».proof.Proof.Ideal.Value1
import proofs.«149684_j6356551598646_1_alg».proof.Proof.Ideal.Tail
import proofs.«149684_j6356551598646_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx Idealize.ShloMosaic.StableHlo

variable (m : (ℓ : Loc nD τ sig) → Buf (Elt Ideal) ℓ)

/-- A vector reshaped to one row is the one-row matrix reading it at the column. -/
theorem reshape_row {n : Nat} (x : (⟨1, ![n]⟩ : Shape).Idx → EReal) (h : (⟨1, ![n]⟩ : Shape).ShapeCasts ⟨2, ![1, n]⟩) :
    shapeCast (⟨2, ![1, n]⟩ : Shape) x h = Cert.Spec.row x := by
  funext j
  refine shapeCast_apply x h j (ix1 (j 1)) ?_
  rw [Shape.rowMajor_val_one, Shape.rowMajor_val_two]
  have h0 : (j 0).val < 1 := idx2_lt0 j
  show (j 1).val = (j 0).val * n + (j 1).val
  have h1 : (j 0).val = 0 := by omega
  rw [h1]; omega

/-! ## The launch arrays as each region finds them -/

/-- An argument no item writes is found by region 0 as launched. -/
theorem E1_of (c : Dev nD) (r : Ref sig .tc) (h : r ∉ Gen.hostOps0_W) : E1 m c r = m ((c : Thread nD τ).loc r) :=
  Gen.V1_of m c r h

/-- A buffer that neither region 0 nor the second reshapes write is found by region 1 as region 0 found it. -/
theorem E3_of (c : Dev nD) (r : Ref sig .tc) (h3 : r ∉ Gen.hostOps1_W) (h2 : r ∉ ([main_v2] : List (Ref sig .tc))) :
    E3 m c r = E1 m c r :=
  (congrFun (V3_eq m c) _).symm.trans ((Gen.V3_of m (outs m) c r h3).trans (Gen.V2_of m (outs m) c r h2))

/-- Region 1 finds the intermediate activations as region 0 left them. -/
theorem E3_v2 (c : Dev nD) : E3 m c main_v2 = o2 m c := by
  refine (congrFun (V3_eq m c) _).symm.trans ((Gen.V3_of m (outs m) c main_v2 (by decide)).trans ?_)
  show Function.update (Gen.V1 m c) main_v2 (outs m 2 main_v2 c) main_v2 = _
  rw [Function.update_self, outs_v2]

/-- The two bias rows region 0 finds are the bias vectors as one-row matrices. -/
theorem E1_v0 (c : Dev nD) : E1 m c main_v0 = Cert.Spec.row (m ((c : Thread nD τ).loc main_arg5)) := by
  show StableHlo.after hostOps0 (Gen.V0 m c) (Proc.devRef .tc main_v0) = _
  after_results
  exact reshape_row _ _
theorem E1_v1 (c : Dev nD) : E1 m c main_v1 = Cert.Spec.row (m ((c : Thread nD τ).loc main_arg7)) := by
  show StableHlo.after hostOps0 (Gen.V0 m c) (Proc.devRef .tc main_v1) = _
  after_results
  exact reshape_row _ _

/-- An argument, after region 0 and before the second reshapes, is as launched. -/
theorem X2_arg (c : Dev nD) (r : Ref sig .tc) (h2 : r ∉ ([main_v2] : List (Ref sig .tc))) (h0 : r ∉ Gen.hostOps0_W) :
    X2 m c r = m ((c : Thread nD τ).loc r) :=
  (congrFun (V2_eq m c) _).symm.trans ((Gen.V2_of m (outs m) c r h2).trans (Gen.V1_of m c r h0))

/-- The two bias rows region 1 finds are the bias vectors as one-row matrices. -/
theorem E3_v3 (c : Dev nD) : E3 m c main_v3 = Cert.Spec.row (m ((c : Thread nD τ).loc main_arg9)) := by
  show StableHlo.after hostOps1 (X2 m c) (Proc.devRef .tc main_v3) = _
  after_results
  exact (reshape_row _ _).trans (congrArg Cert.Spec.row (X2_arg m c main_arg9 (by decide) (by decide)))
theorem E3_v4 (c : Dev nD) : E3 m c main_v4 = Cert.Spec.row (m ((c : Thread nD τ).loc main_arg11)) := by
  show StableHlo.after hostOps1 (X2 m c) (Proc.devRef .tc main_v4) = _
  after_results
  exact (reshape_row _ _).trans (congrArg Cert.Spec.row (X2_arg m c main_arg11 (by decide) (by decide)))

/-- An argument neither region nor reshape writes is found by region 1 as launched. -/
theorem E3_arg (c : Dev nD) (r : Ref sig .tc) (h3 : r ∉ Gen.hostOps1_W) (h2 : r ∉ ([main_v2] : List (Ref sig .tc))) (h0 : r ∉ Gen.hostOps0_W) :
    E3 m c r = m ((c : Thread nD τ).loc r) :=
  (E3_of m c r h3 h2).trans (E1_of m c r h0)

/-! ## What the regions leave, as functions of the launch arrays -/

/-- Region 0 leaves the residual block of the launch arrays in the intermediate activations. -/
theorem o2_value (c : Dev nD) :
    o2 m c = Cert.Spec.resid (m ((c : Thread nD τ).loc main_arg0)) (m ((c : Thread nD τ).loc main_arg4))
      (Cert.Spec.row (m ((c : Thread nD τ).loc main_arg5))) (m ((c : Thread nD τ).loc main_arg6))
      (Cert.Spec.row (m ((c : Thread nD τ).loc main_arg7))) := by
  have h := resid_value (E1 m) c
  rw [E1_of m c main_arg0 (by decide), E1_of m c main_arg4 (by decide), E1_v0 m c, E1_of m c main_arg6 (by decide), E1_v1 m c] at h
  exact h

/-- Region 1 leaves the lattice block of the adjacency, the intermediate activations and the second-layer parameters. -/
theorem o5_value (c : Dev nD) :
    o5 m c = Cert.Spec.lattice (m ((c : Thread nD τ).loc main_arg1)) (o2 m c) (m ((c : Thread nD τ).loc main_arg8))
      (Cert.Spec.row (m ((c : Thread nD τ).loc main_arg9))) (m ((c : Thread nD τ).loc main_arg10))
      (Cert.Spec.row (m ((c : Thread nD τ).loc main_arg11))) := by
  have h := lattice_value (E3 m) c
  rw [E3_arg m c main_arg1 (by decide) (by decide) (by decide), E3_v2 m c, E3_arg m c main_arg8 (by decide) (by decide) (by decide), E3_v3 m c,
    E3_arg m c main_arg10 (by decide) (by decide) (by decide), E3_v4 m c] at h
  exact h

/-! ## The result -/

/-- Before the last host stretch the result array of region 1 holds what it left. -/
theorem V4_v5 (c : Dev nD) : Gen.V4 m (outs m) c main_v5 = o5 m c := by
  show Function.update (Gen.V3 m (outs m) c) main_v5 (outs m 4 main_v5 c) main_v5 = _
  rw [Function.update_self, outs_v5]

/-- Before the last host stretch an argument is as launched. -/
theorem V4_arg (c : Dev nD) (r : Ref sig .tc) (h4 : r ∉ ([main_v5] : List (Ref sig .tc))) (h3 : r ∉ Gen.hostOps1_W)
    (h2 : r ∉ ([main_v2] : List (Ref sig .tc))) (h0 : r ∉ Gen.hostOps0_W) :
    Gen.V4 m (outs m) c r = m ((c : Thread nD τ).loc r) :=
  (Gen.V4_of m (outs m) c r h4).trans ((Gen.V3_of m (outs m) c r h3).trans ((Gen.V2_of m (outs m) c r h2).trans (Gen.V1_of m c r h0)))

/-- The program's result buffer at the end: the edge aggregation of the lattice block of the residual block of the launch
    arrays. -/
theorem kernel_value (c : Dev nD) :
    Gen.V5 m (outs m) c main_v16
      = edgeSum (F := Ideal)
          (Cert.Spec.lattice (m ((c : Thread nD τ).loc main_arg1))
            (Cert.Spec.resid (m ((c : Thread nD τ).loc main_arg0)) (m ((c : Thread nD τ).loc main_arg4))
              (Cert.Spec.row (m ((c : Thread nD τ).loc main_arg5))) (m ((c : Thread nD τ).loc main_arg6))
              (Cert.Spec.row (m ((c : Thread nD τ).loc main_arg7))))
            (m ((c : Thread nD τ).loc main_arg8)) (Cert.Spec.row (m ((c : Thread nD τ).loc main_arg9)))
            (m ((c : Thread nD τ).loc main_arg10)) (Cert.Spec.row (m ((c : Thread nD τ).loc main_arg11))))
          (m ((c : Thread nD τ).loc main_arg2)) (m ((c : Thread nD τ).loc main_arg3)) := by
  rw [← o2_value m c, ← o5_value m c, ← V4_v5 m c,
    ← V4_arg m c main_arg2 (by decide) (by decide) (by decide) (by decide),
    ← V4_arg m c main_arg3 (by decide) (by decide) (by decide) (by decide)]
  show StableHlo.after hostOps2 (Gen.V4 m (outs m) c) (Proc.devRef .tc main_v16) = _
  after_results
  rfl

/-- The kernel program's result as a function of the launch arrays. -/
def result (c : Dev nD) : Buf (Elt Ideal) ((c.tc : Thread nD τ).loc main_v16) :=
  edgeSum (F := Ideal)
    (Cert.Spec.lattice (m ((c : Thread nD τ).loc main_arg1))
      (Cert.Spec.resid (m ((c : Thread nD τ).loc main_arg0)) (m ((c : Thread nD τ).loc main_arg4))
        (Cert.Spec.row (m ((c : Thread nD τ).loc main_arg5))) (m ((c : Thread nD τ).loc main_arg6))
        (Cert.Spec.row (m ((c : Thread nD τ).loc main_arg7))))
      (m ((c : Thread nD τ).loc main_arg8)) (Cert.Spec.row (m ((c : Thread nD τ).loc main_arg9)))
      (m ((c : Thread nD τ).loc main_arg10)) (Cert.Spec.row (m ((c : Thread nD τ).loc main_arg11))))
    (m ((c : Thread nD τ).loc main_arg2)) (m ((c : Thread nD τ).loc main_arg3))

/-- THE RUN WITH ITS VALUE. Every weakly fair execution terminates with the result buffer at `result` of the launch arrays
    and every argument array as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v16 (by decide))).trans (kernel_value m c),
     (h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c),
     (h c _ (mem_uc main_arg8 (by decide))).trans (Gen.V5_main_arg8 m (outs m) c),
     (h c _ (mem_uc main_arg9 (by decide))).trans (Gen.V5_main_arg9 m (outs m) c),
     (h c _ (mem_uc main_arg10 (by decide))).trans (Gen.V5_main_arg10 m (outs m) c),
     (h c _ (mem_uc main_arg11 (by decide))).trans (Gen.V5_main_arg11 m (outs m) c)⟩)
    (run_main m ρ)

end Cert.KernelIdeal.Hand

end
-- ==== Proof.RefValue.lean ====
/-
  The reference program's result, at the extended reals, as a function of its arguments: the edge aggregation of the
  lattice block of the residual block. Its matrix products are read as sums over the contracted coordinate, its bias
  broadcasts as one-row matrices read at the column, its three rectifiers as max with zero.
-/
import proofs.«149684_j6356551598646_1_alg».proof.Proof.Gen.ReferenceIdeal.Read
import proofs.«149684_j6356551598646_1_alg».proof.Proof.Spec
import proofs.«149684_j6356551598646_1_alg».proof.Proof.Ideal.Tail
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Cert.ReferenceIdeal.Read

/-- The reference's last fourteen operations are the edge aggregation applied to the lattice block's stage: both are the
    same chain of host operations, which stays closed. -/
theorem stage_tail (x0 : (⟨S10000x256, .f32⟩ : BufTy).Contents (Elt Ideal)) (x1 : (⟨S10000x10000, .f32⟩ : BufTy).Contents (Elt Ideal))
    (x2 x3 : (⟨S320000, .i32⟩ : BufTy).Contents (Elt Ideal)) (x4 : (⟨S256x512, .f32⟩ : BufTy).Contents (Elt Ideal))
    (x5 : (⟨S512, .f32⟩ : BufTy).Contents (Elt Ideal)) (x6 : (⟨S512x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S256x256, .f32⟩ : BufTy).Contents (Elt Ideal))
    (x11 : (⟨S256, .f32⟩ : BufTy).Contents (Elt Ideal)) :
    val_main_v37 (F := Ideal) x0 x1 x2 x3 x4 x5 x6 x7 x8 x9 x10 x11
      = Cert.KernelIdeal.Hand.edgeSum (F := Ideal) (val_main_v26 (F := Ideal) x0 x1 x4 x5 x6 x7 x8 x9 x10 x11) x2 x3 := by
  unfold val_main_v37 val_main_v36 val_main_v33 val_main_v35 val_main_v34 val_main_cst_4 val_main_v32 val_main_v31 val_main_v30
    val_main_v29 val_main_c_3 val_main_v28 val_main_v27 val_main_c Cert.KernelIdeal.Hand.edgeSum
  generalize val_main_v26 (F := Ideal) x0 x1 x4 x5 x6 x7 x8 x9 x10 x11 = v
  rfl

/-! The generated index functions of the matrix products and of the bias broadcasts, at a rank-2 index given by its
    coordinates: a product reads row `p` of its left factor and column `q` of its right one, a bias is read at the column. -/

theorem lidx0 (p : Fin 10000) (k : Fin 512) (l : Fin 256) : lidx_main_v0 (ix2 p k) l = ix2 p l := by
  funext a; match a with | ⟨0, _⟩ => rfl | ⟨1, _⟩ => rfl
theorem ridx0 (p : Fin 10000) (k : Fin 512) (l : Fin 256) : ridx_main_v0 (ix2 p k) l = ix2 l k := by
  funext a; match a with | ⟨0, _⟩ => rfl | ⟨1, _⟩ => rfl
theorem bidx2 (p : Fin 10000) (k : Fin 512) : idx_main_v1 (idx_main_v2 (ix2 p k)) = ix1 k := by
  funext a; match a with | ⟨0, _⟩ => rfl
theorem lidx6 (p : Fin 10000) (q : Fin 256) (k : Fin 512) : lidx_main_v6 (ix2 p q) k = ix2 p k := by
  funext a; match a with | ⟨0, _⟩ => rfl | ⟨1, _⟩ => rfl
theorem ridx6 (p : Fin 10000) (q : Fin 256) (k : Fin 512) : ridx_main_v6 (ix2 p q) k = ix2 k q := by
  funext a; match a with | ⟨0, _⟩ => rfl | ⟨1, _⟩ => rfl
theorem bidx8 (p : Fin 10000) (q : Fin 256) : idx_main_v7 (idx_main_v8 (ix2 p q)) = ix1 q := by
  funext a; match a with | ⟨0, _⟩ => rfl
theorem lidx13 (p : Fin 10000) (q : Fin 256) (k : Fin 256) : lidx_main_v13 (ix2 p q) k = ix2 p k := by
  funext a; match a with | ⟨0, _⟩ => rfl | ⟨1, _⟩ => rfl
theorem ridx13 (p : Fin 10000) (q : Fin 256) (k : Fin 256) : ridx_main_v13 (ix2 p q) k = ix2 k q := by
  funext a; match a with | ⟨0, _⟩ => rfl | ⟨1, _⟩ => rfl
theorem bidx15 (p : Fin 10000) (q : Fin 256) : idx_main_v14 (idx_main_v15 (ix2 p q)) = ix1 q := by
  funext a; match a with | ⟨0, _⟩ => rfl
theorem lidx19 (p : Fin 10000) (k : Fin 256) (n : Fin 10000) : lidx_main_v19 (ix2 p k) n = ix2 p n := by
  funext a; match a with | ⟨0, _⟩ => rfl | ⟨1, _⟩ => rfl
theorem ridx19 (p : Fin 10000) (k : Fin 256) (n : Fin 10000) : ridx_main_v19 (ix2 p k) n = ix2 n k := by
  funext a; match a with | ⟨0, _⟩ => rfl | ⟨1, _⟩ => rfl
theorem lidx20 (p : Fin 10000) (q : Fin 256) (k : Fin 256) : lidx_main_v20 (ix2 p q) k = ix2 p k := by
  funext a; match a with | ⟨0, _⟩ => rfl | ⟨1, _⟩ => rfl
theorem ridx20 (p : Fin 10000) (q : Fin 256) (k : Fin 256) : ridx_main_v20 (ix2 p q) k = ix2 k q := by
  funext a; match a with | ⟨0, _⟩ => rfl | ⟨1, _⟩ => rfl
theorem bidx22 (p : Fin 10000) (q : Fin 256) : idx_main_v21 (idx_main_v22 (ix2 p q)) = ix1 q := by
  funext a; match a with | ⟨0, _⟩ => rfl

section stages

variable (x0 : (⟨S10000x256, .f32⟩ : BufTy).Contents (Elt Ideal)) (x1 : (⟨S10000x10000, .f32⟩ : BufTy).Contents (Elt Ideal))
  (x4 : (⟨S256x512, .f32⟩ : BufTy).Contents (Elt Ideal)) (x5 : (⟨S512, .f32⟩ : BufTy).Contents (Elt Ideal))
  (x6 : (⟨S512x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))

/-- The first rectified layer at row `p`, unit `k` is the specification's hidden layer. -/
theorem v5_at (p : Fin 10000) (k : Fin 512) :
    val_main_v5 (F := Ideal) x0 x4 x5 (ix2 p k) = Cert.Spec.hidden x0 x4 (Cert.Spec.row x5) p k := by
  rw [val_main_v5_apply, val_main_v3_apply, val_main_v0_apply, val_main_v2_apply, val_main_v1_apply, val_main_v4_apply,
    val_main_cst_apply, bidx2]
  simp only [lidx0, ridx0, Ideal.addf_def, Ideal.maximumf_def, Ideal.ofBits_def, Ideal.ofBits_zero_f32]
  rfl

/-- The residual block's stage at row `p`, column `q` is the specification's entry. -/
theorem v12_at (p : Fin 10000) (q : Fin 256) :
    val_main_v12 (F := Ideal) x0 x4 x5 x6 x7 (ix2 p q)
      = Cert.Spec.residAt x0 x4 (Cert.Spec.row x5) x6 (Cert.Spec.row x7) p q := by
  rw [val_main_v12_apply, val_main_v10_apply, val_main_v9_apply, val_main_v6_apply, val_main_v8_apply, val_main_v7_apply,
    val_main_v11_apply, val_main_cst_0_apply, bidx8]
  simp only [lidx6, ridx6, v5_at, Ideal.addf_def, Ideal.maximumf_def, Ideal.ofBits_def, Ideal.ofBits_zero_f32]
  rfl

/-- The residual block's stage as a whole array. -/
theorem v12_eq :
    val_main_v12 (F := Ideal) x0 x4 x5 x6 x7 = Cert.Spec.resid x0 x4 (Cert.Spec.row x5) x6 (Cert.Spec.row x7) := by
  funext i
  obtain ⟨p, q, rfl⟩ : ∃ (p : Fin 10000) (q : Fin 256), i = ix2 p q := ⟨i 0, i 1, eq_ix2 i⟩
  exact v12_at x0 x4 x5 x6 x7 p q

/-- The lattice block's stage is the specification's lattice block of the residual block. -/
theorem v26_eq :
    val_main_v26 (F := Ideal) x0 x1 x4 x5 x6 x7 x8 x9 x10 x11
      = Cert.Spec.lattice x1 (Cert.Spec.resid x0 x4 (Cert.Spec.row x5) x6 (Cert.Spec.row x7)) x8 (Cert.Spec.row x9) x10
          (Cert.Spec.row x11) := by
  funext i
  obtain ⟨p, q, rfl⟩ : ∃ (p : Fin 10000) (q : Fin 256), i = ix2 p q := ⟨i 0, i 1, eq_ix2 i⟩
  rw [val_main_v26_apply, val_main_v18_apply, val_main_v16_apply, val_main_v13_apply, val_main_v15_apply, val_main_v14_apply,
    val_main_v17_apply, val_main_cst_1_apply, val_main_v25_apply, val_main_v23_apply, val_main_v20_apply, val_main_v22_apply,
    val_main_v21_apply, val_main_v24_apply, val_main_cst_2_apply, bidx15, bidx22]
  simp only [lidx13, ridx13, lidx20, ridx20, val_main_v19_apply, lidx19, ridx19, v12_eq, Ideal.addf_def, Ideal.maximumf_def,
    Ideal.ofBits_def, Ideal.ofBits_zero_f32]
  rfl

end stages

/-- The reference's result buffer after its run is the edge aggregation of the lattice block of the residual block of
    its arguments. -/
theorem ref_value (m : (ℓ : Loc nD τ sig) → Buf (Elt Ideal) ℓ) (c : Dev nD) :
    res_out0 (F := Ideal) m c
      = Cert.KernelIdeal.Hand.edgeSum (F := Ideal)
          (Cert.Spec.lattice (m ((c.tc : Thread nD τ).loc main_arg1))
            (Cert.Spec.resid (m ((c.tc : Thread nD τ).loc main_arg0)) (m ((c.tc : Thread nD τ).loc main_arg4))
              (Cert.Spec.row (m ((c.tc : Thread nD τ).loc main_arg5))) (m ((c.tc : Thread nD τ).loc main_arg6))
              (Cert.Spec.row (m ((c.tc : Thread nD τ).loc main_arg7))))
            (m ((c.tc : Thread nD τ).loc main_arg8)) (Cert.Spec.row (m ((c.tc : Thread nD τ).loc main_arg9)))
            (m ((c.tc : Thread nD τ).loc main_arg10)) (Cert.Spec.row (m ((c.tc : Thread nD τ).loc main_arg11))))
          (m ((c.tc : Thread nD τ).loc main_arg2)) (m ((c.tc : Thread nD τ).loc main_arg3)) := by
  refine (val_main_v37_eq (F := Ideal) m c).trans ?_
  rw [stage_tail, v26_eq]

end Cert.ReferenceIdeal.RefValue

end
-- ==== Proof.lean ====
/-
  The certificate. The program computes, for node features x, adjacency A and edge lists (src, dst):
    v  = max(x + (max(x W1 + b1, 0) W2 + b2), 0)                       (a residual block, in five row tiles)
    v2 = max(v U1 + c1, 0) + max((A v) U2 + c2, 0)                     (a lattice block, in 125 row tiles)
    out = v2 + (sum over edges (s, d) of row s of v2, placed at row d)
  and the reference computes the same three stages on whole arrays. Over the extended reals the changes of float format
  are the identity, a tiled matrix product into zeros is the whole product, and both sides group every sum the same way,
  so the two results are one function of the arguments; no finiteness is needed and the precondition is never opened.

  Frames. Each kernel region loads its tiles whole, computes, and stores its output tile whole; its run is the
  library's pipeline over that body, and the whole program is the chain: reshapes, residual region, reshapes, lattice
  region, edge aggregation. Every unscoped buffer is tracked through the chain, so the arguments are read back unchanged at
  the end and the result buffer at its value. The lattice region reads the intermediate activations through two windows
  of one array; the array's ownership is halved between them for the region and rejoined after it. The word-level
  program and the idealized one are the same text (the idealization rewrote nothing), so one argument, generic in the
  float instance, serves both frames. The reference has no kernel: its frame is its run with the result dropped.
-/
import proofs.«149684_j6356551598646_1_alg».proof.Defs
import proofs.«149684_j6356551598646_1_alg».proof.Proof.Gen.Kernel
import proofs.«149684_j6356551598646_1_alg».proof.Proof.Gen.KernelIdeal
import proofs.«149684_j6356551598646_1_alg».proof.Proof.Gen.ReferenceIdeal
import proofs.«149684_j6356551598646_1_alg».proof.Proof.Gen.Pre_finite_inputs
import proofs.«149684_j6356551598646_1_alg».proof.Proof.Gen.ReferenceIdeal.Run
import proofs.«149684_j6356551598646_1_alg».proof.Proof.Bits.Run
import proofs.«149684_j6356551598646_1_alg».proof.Proof.Ideal.KValue
import proofs.«149684_j6356551598646_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame (F := Bits) m ρ

/-- The idealized program runs and leaves its arguments unchanged. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: each is the edge
    aggregation of the lattice block of the residual block of its arguments. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_value m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
